-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x5 : Shape := ⟨2, ![2048, 5]⟩
abbrev S16384x2 : Shape := ⟨2, ![16384, 2]⟩
abbrev S_ : Shape := ⟨0, ![]⟩

class Facts : Prop where
  bcast_S_S2048x5 : S_.BroadcastsInDim S2048x5 (![] : Fin 0 → Fin S2048x5.rank)
  reducesTo_S2048x5_S_d0_1 : S2048x5.ReducesTo [0, 1] S_
  h_S_ : 0 < S_.numel
  bcast_S_S16384x2 : S_.BroadcastsInDim S16384x2 (![] : Fin 0 → Fin S16384x2.rank)
  reducesTo_S16384x2_S_d0_1 : S16384x2.ReducesTo [0, 1] S_

variable [Facts]

def fn {F : FTy → Type} [FloatOps F] (main_arg0 : FVec F S2048x5 .f32) (main_arg1 : FVec F S2048x5 .f32) (main_arg2 : FVec F S16384x2 .f32) : IVec S_ 1 :=
  let main_v0 : FVec F S2048x5 .f32 := Host.absf main_arg0
  let main_cst : FVec F S_ .f32 := constant S_ .f32 0x7F800000#32
  let main_v1 : FVec F S2048x5 .f32 := broadcastInDim S2048x5 ![] bcast_S_S2048x5 main_cst
  let main_v2 : IVec S2048x5 1 := cmpf .olt main_v0 main_v1
  let main_c : IVec S_ 1 := constantI S_ 1 1#1
  let main_v3 : IVec S_ 1 := (fun x v => Host.reduce IntOp.andi x v reducesTo_S2048x5_S_d0_1 h_S_) main_v2 main_c
  let main_v4 : FVec F S2048x5 .f32 := Host.absf main_arg1
  let main_cst_0 : FVec F S_ .f32 := constant S_ .f32 0x7F800000#32
  let main_v5 : FVec F S2048x5 .f32 := broadcastInDim S2048x5 ![] bcast_S_S2048x5 main_cst_0
  let main_v6 : IVec S2048x5 1 := cmpf .olt main_v4 main_v5
  let main_c_1 : IVec S_ 1 := constantI S_ 1 1#1
  let main_v7 : IVec S_ 1 := (fun x v => Host.reduce IntOp.andi x v reducesTo_S2048x5_S_d0_1 h_S_) main_v6 main_c_1
  let main_v8 : IVec S_ 1 := andi main_v3 main_v7
  let main_v9 : FVec F S16384x2 .f32 := Host.absf main_arg2
  let main_cst_2 : FVec F S_ .f32 := constant S_ .f32 0x7F800000#32
  let main_v10 : FVec F S16384x2 .f32 := broadcastInDim S16384x2 ![] bcast_S_S16384x2 main_cst_2
  let main_v11 : IVec S16384x2 1 := cmpf .olt main_v9 main_v10
  let main_c_3 : IVec S_ 1 := constantI S_ 1 1#1
  let main_v12 : IVec S_ 1 := (fun x v => Host.reduce IntOp.andi x v reducesTo_S16384x2_S_d0_1 h_S_) main_v11 main_c_3
  let main_v13 : IVec S_ 1 := andi main_v8 main_v12
  main_v13
-- ==== Kernel.lean ====
abbrev S2048x5 : Shape := ⟨2, ![2048, 5]⟩
abbrev S16384x2 : Shape := ⟨2, ![16384, 2]⟩
abbrev S2x16384 : Shape := ⟨2, ![2, 16384]⟩
abbrev S2048 : Shape := ⟨1, ![2048]⟩
abbrev S256x5 : Shape := ⟨2, ![256, 5]⟩
abbrev S2x1024 : Shape := ⟨2, ![2, 1024]⟩
abbrev S256 : Shape := ⟨1, ![256]⟩
abbrev S256x1 : Shape := ⟨2, ![256, 1]⟩
abbrev S1x1024 : Shape := ⟨2, ![1, 1024]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S2048x5, .f32⟩
  | .hbm, ⟨1, _⟩ => ⟨S2048x5, .f32⟩
  | .hbm, ⟨2, _⟩ => ⟨S16384x2, .f32⟩
  | .hbm, ⟨3, _⟩ => ⟨S2x16384, .f32⟩
  | .hbm, ⟨4, _⟩ => ⟨S2048, .f32⟩
  | .local _ .vmem, ⟨0, _⟩ => ⟨S256x5, .f32⟩
  | .local _ .vmem, ⟨1, _⟩ => ⟨S256x5, .f32⟩
  | .local _ .vmem, ⟨2, _⟩ => ⟨S256x5, .f32⟩
  | .local _ .vmem, ⟨3, _⟩ => ⟨S256x5, .f32⟩
  | .local _ .vmem, ⟨4, _⟩ => ⟨S2x1024, .f32⟩
  | .local _ .vmem, ⟨5, _⟩ => ⟨S2x1024, .f32⟩
  | .local _ .vmem, ⟨6, _⟩ => ⟨S256, .f32⟩
  | .local _ .vmem, ⟨7, _⟩ => ⟨S256, .f32⟩
  | .local _ .vmem, ⟨8, _⟩ => ⟨S256x1, .f32⟩
  | .local _ .vmem, ⟨9, _⟩ => ⟨S256x1, .f32⟩
  | _, _ => ⟨S2048x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v108 : BitVec 1 := Scalar.cmpi .eq arg1 c15_i32
  let v109 : BitVec 32 := Scalar.extui v108
  let c0_i32_39 : BitVec 32 := 0#32
  let v110 : BitVec 1 := Scalar.cmpi .ne v109 c0_i32_39
  v110

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage0_0 : Fin 2 → Memref sig .tc .vmem S256x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S16384x2_S2x16384_1_0 : S16384x2.Transposes [1, 0] S2x16384
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2x1024_S1x1024_0_0 : ∀ a, (![0, 0] : Fin 2 → Nat) a + S1x1024.size a ≤ S2x1024.size a
  h_S1x1024 : 0 < S1x1024.numel
  shapeCasts_S1x1024_S1x1024 : S1x1024.ShapeCasts S1x1024
  inb_S2x1024_S1x1024_1_0 : ∀ a, (![1, 0] : Fin 2 → Nat) a + S1x1024.size a ≤ S2x1024.size a
  inb_S256x5_S256x1_0_0 : ∀ a, (![0, 0] : Fin 2 → Nat) a + S256x1.size a ≤ S256x5.size a
  inb_S256x5_S256x1_0_1 : ∀ a, (![0, 1] : Fin 2 → Nat) a + S256x1.size a ≤ S256x5.size a
  inb_S256x5_S256x1_0_2 : ∀ a, (![0, 2] : Fin 2 → Nat) a + S256x1.size a ≤ S256x5.size a
  inb_S256x5_S256x1_0_3 : ∀ a, (![0, 3] : Fin 2 → Nat) a + S256x1.size a ≤ S256x5.size a
  inb_S256x5_S256x1_0_4 : ∀ a, (![0, 4] : Fin 2 → Nat) a + S256x1.size a ≤ S256x5.size a
  broadcasts_S1x1024_S256x1024 : S1x1024.Broadcasts S256x1024
  broadcasts_S256x1_S256x1024 : S256x1.Broadcasts S256x1024
  reduces_S256x1024_S256 : S256x1024.Reduces [1] S256
  shapeCasts_S256_S256x1 : S256.ShapeCasts S256x1
  shapeCasts_S256x1_S256 : S256x1.ShapeCasts S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x5.size a ≤ S2048x5.size a
  hwx0_0 : ∀ i : grid0.Coords, EltTy.bits .f32 = 32 ∨ (Rect.block (s := S2048x5) S256x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x5.size a ≤ S2048x5.size a
  hwx0_1 : ∀ i : grid0.Coords, EltTy.bits .f32 = 32 ∨ (Rect.block (s := S2048x5) S256x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024.size a ≤ S2x16384.size a
  hwx0_2 : ∀ i : grid0.Coords, EltTy.bits .f32 = 32 ∨ (Rect.block (s := S2x16384) S2x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S2048.size a
  hwx0_3 : ∀ i : grid0.Coords, EltTy.bits .f32 = 32 ∨ (Rect.block (s := S2048) S256.size (cc0_transform_3 i) (hinb0_3 i)).WholeWords (EltTy.packing .f32)

variable [Facts₀]

abbrev win0_0 : Pipeline.Window sig grid0 :=
  Pipeline.Window.ofSpec (Memref.whole main_arg0) S256x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x5.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x5 : Shape := ⟨2, ![2048, 5]⟩
abbrev S16384x2 : Shape := ⟨2, ![16384, 2]⟩
abbrev S2048x1 : Shape := ⟨2, ![2048, 1]⟩
abbrev S16384x1 : Shape := ⟨2, ![16384, 1]⟩
abbrev S16384 : Shape := ⟨1, ![16384]⟩
abbrev S1x16384 : Shape := ⟨2, ![1, 16384]⟩
abbrev S2048x16384 : Shape := ⟨2, ![2048, 16384]⟩
abbrev S_ : Shape := ⟨0, ![]⟩
abbrev S2048 : Shape := ⟨1, ![2048]⟩

abbrev nBuf : Space → Nat
  | .hbm => 144
  | .vmem => 0
  | .smem => 0
  | _ => 0

abbrev hbmTy0_0 (i : Nat) : BufTy := match i % 128 with
  | 0 => ⟨S2048x5, .f32⟩
  | 1 => ⟨S2048x5, .f32⟩
  | 2 => ⟨S16384x2, .f32⟩
  | 3 => ⟨S2048x1, .f32⟩
  | 4 => ⟨S2048x1, .f32⟩
  | 5 => ⟨S2048x1, .f32⟩
  | 6 => ⟨S2048x1, .f32⟩
  | 7 => ⟨S2048x1, .f32⟩
  | 8 => ⟨S16384x1, .f32⟩
  | 9 => ⟨S16384, .f32⟩
  | 10 => ⟨S1x16384, .f32⟩
  | 11 => ⟨S2048x16384, .f32⟩
  | 12 => ⟨S2048x16384, .f32⟩
  | 13 => ⟨S2048x16384, .f32⟩
  | 14 => ⟨S16384x1, .f32⟩
  | 15 => ⟨S16384, .f32⟩
  | 16 => ⟨S1x16384, .f32⟩
  | 17 => ⟨S2048x16384, .f32⟩
  | 18 => ⟨S2048x16384, .f32⟩
  | 19 => ⟨S2048x16384, .f32⟩
  | 20 => ⟨S2048x1, .f32⟩
  | 21 => ⟨S2048x1, .f32⟩
  | 22 => ⟨S2048x16384, .f32⟩
  | 23 => ⟨S2048x16384, .f32⟩
  | 24 => ⟨S2048x16384, .f32⟩
  | 25 => ⟨S2048x16384, .f32⟩
  | 26 => ⟨S2048x16384, .f32⟩
  | 27 => ⟨S2048x16384, .f32⟩
  | 28 => ⟨S2048x16384, .f32⟩
  | 29 => ⟨S2048x16384, .f32⟩
  | 30 => ⟨S2048x16384, .f32⟩
  | 31 => ⟨S2048x16384, .f32⟩
  | 32 => ⟨S2048x16384, .f32⟩
  | 33 => ⟨S2048x16384, .f32⟩
  | 34 => ⟨S2048x16384, .f32⟩
  | 35 => ⟨S_, .f32⟩
  | 36 => ⟨S2048x1, .f32⟩
  | 37 => ⟨S2048x1, .f32⟩
  | 38 => ⟨S2048x16384, .f32⟩
  | 39 => ⟨S2048x16384, .f32⟩
  | 40 => ⟨S_, .f32⟩
  | 41 => ⟨S2048x16384, .f32⟩
  | 42 => ⟨S2048x16384, .f32⟩
  | 43 => ⟨S2048x16384, .f32⟩
  | 44 => ⟨S2048x16384, .f32⟩
  | 45 => ⟨S_, .f32⟩
  | 46 => ⟨S2048x16384, .f32⟩
  | 47 => ⟨S2048x16384, .f32⟩
  | 48 => ⟨S_, .f32⟩
  | 49 => ⟨S2048x16384, .f32⟩
  | 50 => ⟨S2048x16384, .f32⟩
  | 51 => ⟨S_, .f32⟩
  | 52 => ⟨S2048x1, .f32⟩
  | 53 => ⟨S2048x1, .f32⟩
  | 54 => ⟨S2048x16384, .f32⟩
  | 55 => ⟨S2048x16384, .f32⟩
  | 56 => ⟨S_, .f32⟩
  | 57 => ⟨S2048x16384, .f32⟩
  | 58 => ⟨S2048x16384, .f32⟩
  | 59 => ⟨S2048x16384, .f32⟩
  | 60 => ⟨S2048x16384, .f32⟩
  | 61 => ⟨S_, .f32⟩
  | 62 => ⟨S2048x16384, .f32⟩
  | 63 => ⟨S2048x16384, .f32⟩
  | 64 => ⟨S_, .f32⟩
  | 65 => ⟨S2048x16384, .f32⟩
  | 66 => ⟨S2048x16384, .f32⟩
  | 67 => ⟨S2048x16384, .f32⟩
  | 68 => ⟨S2048x1, .f32⟩
  | 69 => ⟨S2048x1, .f32⟩
  | 70 => ⟨S2048x1, .f32⟩
  | 71 => ⟨S2048x1, .f32⟩
  | 72 => ⟨S2048x1, .f32⟩
  | 73 => ⟨S16384x1, .f32⟩
  | 74 => ⟨S16384, .f32⟩
  | 75 => ⟨S1x16384, .f32⟩
  | 76 => ⟨S2048x16384, .f32⟩
  | 77 => ⟨S2048x16384, .f32⟩
  | 78 => ⟨S2048x16384, .f32⟩
  | 79 => ⟨S16384x1, .f32⟩
  | 80 => ⟨S16384, .f32⟩
  | 81 => ⟨S1x16384, .f32⟩
  | 82 => ⟨S2048x16384, .f32⟩
  | 83 => ⟨S2048x16384, .f32⟩
  | 84 => ⟨S2048x16384, .f32⟩
  | 85 => ⟨S2048x1, .f32⟩
  | 86 => ⟨S2048x1, .f32⟩
  | 87 => ⟨S2048x16384, .f32⟩
  | 88 => ⟨S2048x16384, .f32⟩
  | 89 => ⟨S2048x16384, .f32⟩
  | 90 => ⟨S2048x16384, .f32⟩
  | 91 => ⟨S2048x16384, .f32⟩
  | 92 => ⟨S2048x16384, .f32⟩
  | 93 => ⟨S2048x16384, .f32⟩
  | 94 => ⟨S2048x16384, .f32⟩
  | 95 => ⟨S2048x16384, .f32⟩
  | 96 => ⟨S2048x16384, .f32⟩
  | 97 => ⟨S2048x16384, .f32⟩
  | 98 => ⟨S2048x16384, .f32⟩
  | 99 => ⟨S2048x16384, .f32⟩
  | 100 => ⟨S_, .f32⟩
  | 101 => ⟨S2048x1, .f32⟩
  | 102 => ⟨S2048x1, .f32⟩
  | 103 => ⟨S2048x16384, .f32⟩
  | 104 => ⟨S2048x16384, .f32⟩
  | 105 => ⟨S_, .f32⟩
  | 106 => ⟨S2048x16384, .f32⟩
  | 107 => ⟨S2048x16384, .f32⟩
  | 108 => ⟨S2048x16384, .f32⟩
  | 109 => ⟨S2048x16384, .f32⟩
  | 110 => ⟨S_, .f32⟩
  | 111 => ⟨S2048x16384, .f32⟩
  | 112 => ⟨S2048x16384, .f32⟩
  | 113 => ⟨S_, .f32⟩
  | 114 => ⟨S2048x16384, .f32⟩
  | 115 => ⟨S2048x16384, .f32⟩
  | 116 => ⟨S_, .f32⟩
  | 117 => ⟨S2048x1, .f32⟩
  | 118 => ⟨S2048x1, .f32⟩
  | 119 => ⟨S2048x16384, .f32⟩
  | 120 => ⟨S2048x16384, .f32⟩
  | 121 => ⟨S_, .f32⟩
  | 122 => ⟨S2048x16384, .f32⟩
  | 123 => ⟨S2048x16384, .f32⟩
  | 124 => ⟨S2048x16384, .f32⟩
  | 125 => ⟨S2048x16384, .f32⟩
  | 126 => ⟨S_, .f32⟩
  | 127 => ⟨S2048x16384, .f32⟩
  | _ => ⟨S2048x5, .f32⟩

abbrev hbmTy0_1 (i : Nat) : BufTy := match i % 128 with
  | 0 => ⟨S2048x16384, .f32⟩
  | 1 => ⟨S_, .f32⟩
  | 2 => ⟨S2048x16384, .f32⟩
  | 3 => ⟨S2048x16384, .f32⟩
  | 4 => ⟨S2048x16384, .f32⟩
  | 5 => ⟨S2048x16384, .f32⟩
  | 6 => ⟨S_, .f32⟩
  | 7 => ⟨S2048, .f32⟩
  | 8 => ⟨S2048x16384, .f32⟩
  | 9 => ⟨S_, .f32⟩
  | 10 => ⟨S2048, .f32⟩
  | 11 => ⟨S2048, .f32⟩
  | 12 => ⟨S_, .f32⟩
  | 13 => ⟨S2048, .f32⟩
  | 14 => ⟨S2048, .f32⟩
  | 15 => ⟨S2048, .f32⟩
  | _ => ⟨S2048x5, .f32⟩

abbrev hbmTy (i : Nat) : BufTy := match i / 128 with
  | 0 => hbmTy0_0 i
  | 1 => hbmTy0_1 i
  | _ => ⟨S2048x5, .f32⟩

abbrev bufTy : (tb : Table) → Fin (tcTables nBuf tb) → BufTy
  | .hbm, ⟨i, _⟩ => hbmTy i
  | _, _ => ⟨S2048x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_cst : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_cst_0 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_cst_1 : Ref sig .tc := ⟨.hbm, 45, rfl⟩
abbrev main_v40 : Ref sig .tc := ⟨.hbm, 46, rfl⟩
abbrev main_v41 : Ref sig .tc := ⟨.hbm, 47, rfl⟩
abbrev main_cst_2 : Ref sig .tc := ⟨.hbm, 48, rfl⟩
abbrev main_v42 : Ref sig .tc := ⟨.hbm, 49, rfl⟩
abbrev main_v43 : Ref sig .tc := ⟨.hbm, 50, rfl⟩
abbrev main_cst_3 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_4 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_cst_7 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_cst_9 : Ref sig .tc := ⟨.hbm, 110, rfl⟩
abbrev main_v97 : Ref sig .tc := ⟨.hbm, 111, rfl⟩
abbrev main_v98 : Ref sig .tc := ⟨.hbm, 112, rfl⟩
abbrev main_cst_10 : Ref sig .tc := ⟨.hbm, 113, rfl⟩
abbrev main_v99 : Ref sig .tc := ⟨.hbm, 114, rfl⟩
abbrev main_v100 : Ref sig .tc := ⟨.hbm, 115, rfl⟩
abbrev main_cst_11 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_cst_12 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_cst_13 : Ref sig .tc := ⟨.hbm, 126, rfl⟩
abbrev main_v109 : Ref sig .tc := ⟨.hbm, 127, rfl⟩
abbrev main_v110 : Ref sig .tc := ⟨.hbm, 128, rfl⟩
abbrev main_cst_14 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_cst_15 : Ref sig .tc := ⟨.hbm, 134, rfl⟩
abbrev main_v115 : Ref sig .tc := ⟨.hbm, 135, rfl⟩
abbrev main_v116 : Ref sig .tc := ⟨.hbm, 136, rfl⟩
abbrev main_cst_16 : Ref sig .tc := ⟨.hbm, 137, rfl⟩
abbrev main_v117 : Ref sig .tc := ⟨.hbm, 138, rfl⟩
abbrev main_v118 : Ref sig .tc := ⟨.hbm, 139, rfl⟩
abbrev main_cst_17 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩

abbrev nD : Nat := 1
abbrev τ : Topo := Topo.v7x

variable {F : FTy → Type} [FloatOps F]

class Facts₀ : Prop where
  slices_S2048x5_S2048x1_0_0 : S2048x5.Slices ![0, 0] S2048x1
  slices_S2048x5_S2048x1_0_1 : S2048x5.Slices ![0, 1] S2048x1
  slices_S2048x5_S2048x1_0_2 : S2048x5.Slices ![0, 2] S2048x1
  slices_S2048x5_S2048x1_0_3 : S2048x5.Slices ![0, 3] S2048x1
  slices_S2048x5_S2048x1_0_4 : S2048x5.Slices ![0, 4] S2048x1
  slices_S16384x2_S16384x1_0_0 : S16384x2.Slices ![0, 0] S16384x1
  shapeCasts_S16384x1_S16384 : S16384x1.ShapeCasts S16384
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  bcast_S2048x1_S2048x16384_0_1 : S2048x1.BroadcastsInDim S2048x16384 (![0, 1] : Fin 2 → Fin S2048x16384.rank)
  slices_S16384x2_S16384x1_0_1 : S16384x2.Slices ![0, 1] S16384x1
  bcast_S_S2048x1 : S_.BroadcastsInDim S2048x1 (![] : Fin 0 → Fin S2048x1.rank)
  bcast_S_S2048x16384 : S_.BroadcastsInDim S2048x16384 (![] : Fin 0 → Fin S2048x16384.rank)
  reducesTo_S2048x16384_S2048_d1 : S2048x16384.ReducesTo [1] S2048
  h_S_ : 0 < S_.numel
  bcast_S_S2048 : S_.BroadcastsInDim S2048 (![] : Fin 0 → Fin S2048.rank)

variable [Facts₀]

class Facts : Prop extends Facts₀ where

variable [Facts]
-- ==== Proof.Spec.lean ====
/-
  The mathematics both programs compute, stated once over the extended reals.

  A box is (cx, cy, w, h, θ); a pixel centre is (gx, gy). In the box's own axes the pixel sits at
  distances |tx·cos θ + ty·sin θ| and |−tx·sin θ + ty·cos θ| from the centre (tx = gx − cx, ty = gy − cy),
  and its soft membership in the box is the product of two logistic factors, one per axis,
  logistic(k·(side/2 − distance)). For a predicted and a target box the soft intersection is the sum over
  the pixels of the product of the two memberships, the soft union the sum of their sum minus the
  intersection, and the result is intersection / (union + ε), row by row.

  The three float literals (1/2, the sharpness k = 10 and ε) are kept as their binary words: both programs
  carry the same words, so they are never evaluated.
-/
import Idealize.ShloMosaic.PureOps.Ideal
import Idealize.ShloMosaic.Lib.ValueIdx

noncomputable section

open scoped BigOperators
open Idealize.ShloMosaic Idealize.ShloMosaic.ValueIdx

namespace Cert.Pious

/-- One half, as both programs spell it. -/
abbrev half : EReal := Ideal.ofBits .f32 0x3F000000#32
/-- The logistic factors' sharpness, ten. -/
abbrev sharp : EReal := Ideal.ofBits .f32 0x41200000#32
/-- The guard added to the union before the division. -/
abbrev guard : EReal := Ideal.ofBits .f32 0x3089705F#32

/-- The magnitude of an extended real. -/
def mag (x : EReal) : EReal := max x (-x)

/-- Soft membership along one axis of a box: `logistic (k · (side / 2 − distance))`. -/
def side (s d : EReal) : EReal := Ideal.logistic (sharp * (s * half - d))

/-- Soft membership of the pixel centre (gx, gy) in the rotated box (cx, cy, w, h, θ). -/
def member (cx cy w h th gx gy : EReal) : EReal :=
  side w (mag ((gx - cx) * Ideal.cos th + (gy - cy) * Ideal.sin th))
    * side h (mag (-(gx - cx) * Ideal.sin th + (gy - cy) * Ideal.cos th))

/-- 2048 boxes, five numbers each. -/
abbrev Boxes : Type := (⟨2, ![2048, 5]⟩ : Shape).Idx → EReal
/-- 16384 pixel centres, two coordinates each. -/
abbrev Pixels : Type := (⟨2, ![16384, 2]⟩ : Shape).Idx → EReal

/-- Soft membership of pixel `p` in box `n`. -/
def weight (B : Boxes) (G : Pixels) (n : Fin 2048) (p : Fin 16384) : EReal :=
  member (B (ix2 n (0 : Fin 5))) (B (ix2 n (1 : Fin 5))) (B (ix2 n (2 : Fin 5))) (B (ix2 n (3 : Fin 5)))
    (B (ix2 n (4 : Fin 5))) (G (ix2 p (0 : Fin 2))) (G (ix2 p (1 : Fin 2)))

/-- The soft intersection of predicted box `n` and target box `n`. -/
def inter (P T : Boxes) (G : Pixels) (n : Fin 2048) : EReal :=
  ∑ p : Fin 16384, weight P G n p * weight T G n p

/-- The sum over the pixels of the two memberships' sum. -/
def total (P T : Boxes) (G : Pixels) (n : Fin 2048) : EReal :=
  ∑ p : Fin 16384, (weight P G n p + weight T G n p)

/-- The result: intersection over (union + ε), the union being `total − inter`. -/
def iou (P T : Boxes) (G : Pixels) : (⟨1, ![2048]⟩ : Shape).Idx → EReal := fun i =>
  Ideal.div (inter P T G (i 0)) ((total P T G (i 0) - inter P T G (i 0)) + guard)

/-- Pixel `l` of pixel tile `s` (sixteen tiles of 1024 pixels; `s` is read modulo 16). -/
def pix (s : ℕ) (l : Fin 1024) : Fin 16384 :=
  ⟨1024 * (s % 16) + l.val, by have := l.isLt; have := Nat.mod_lt s (show 0 < 16 by norm_num); omega⟩

/-- Row `r` of box tile `q` (eight tiles of 256 boxes; `q` is read modulo 8). -/
def row (q : ℕ) (r : Fin 256) : Fin 2048 :=
  ⟨256 * (q % 8) + r.val, by have := r.isLt; have := Nat.mod_lt q (show 0 < 8 by norm_num); omega⟩

end Cert.Pious

end
-- ==== Proof.SumLaws.lean ====
/-
  The two summation laws that join the tiled accumulation to the whole sums.
-/
import proofs.«115497_j39109972198157_1_alg».proof.Proof.Spec
import Idealize.ShloMosaic.PureOps.Ideal
import Mathlib.Data.EReal.Basic
import Mathlib.Data.EReal.Operations
import Mathlib.Algebra.BigOperators.Fin
import Mathlib.Algebra.BigOperators.Intervals

noncomputable section

open scoped BigOperators
open Idealize.ShloMosaic Idealize.ShloMosaic.ValueIdx

namespace Cert.Pious

/-- The pair (tile, place in the tile) names each pixel exactly once: the pixel `1024 · s + l` has tile
    `p / 1024` and place `p % 1024`. -/
def tileEquiv : Fin 16 × Fin 1024 ≃ Fin 16384 where
  toFun x := pix x.1.val x.2
  invFun p := (⟨p.val / 1024, by have := p.isLt; omega⟩, ⟨p.val % 1024, Nat.mod_lt _ (by norm_num)⟩)
  left_inv := by
    rintro ⟨⟨i, hi⟩, ⟨j, hj⟩⟩
    simp only [pix, Prod.mk.injEq, Fin.mk.injEq]
    constructor <;> omega
  right_inv := by
    rintro ⟨p, hp⟩
    simp only [pix, Fin.mk.injEq]
    omega

/-- In any additive commutative monoid, summing tile by tile is summing over all the pixels. -/
theorem sum_tiles {M : Type*} [AddCommMonoid M] (f : Fin 16384 → M) :
    ∑ s ∈ Finset.range 16, ∑ l : Fin 1024, f (pix s l) = ∑ p, f p := by
  rw [Finset.sum_range (fun s => ∑ l : Fin 1024, f (pix s l)),
    ← Fintype.sum_prod_type' (fun (s : Fin 16) (l : Fin 1024) => f (pix s.val l))]
  exact Fintype.sum_equiv tileEquiv _ _ (fun _ => rfl)

/-- A finite sum of reals, read in the extended reals, is the real sum. -/
theorem coe_sum_real {ι : Type*} (s : Finset ι) (a : ι → ℝ) :
    ∑ i ∈ s, (a i : EReal) = ((∑ i ∈ s, a i : ℝ) : EReal) := by
  classical
  refine Finset.induction_on s ?_ ?_
  · rw [Finset.sum_empty, Finset.sum_empty, EReal.coe_zero]
  · intro i t hi ih
    rw [Finset.sum_insert hi, Finset.sum_insert hi, ih, EReal.coe_add]

theorem logistic_real (x : EReal) : ∃ r : ℝ, Ideal.logistic x = (r : EReal) := by
  induction x using EReal.rec with
  | bot => exact ⟨0, by rw [Ideal.logistic_bot, EReal.coe_zero]⟩
  | coe r => exact ⟨(1 + Real.exp (-r))⁻¹, Ideal.logistic_coe r⟩
  | top => exact ⟨1, by rw [Ideal.logistic_top, EReal.coe_one]⟩

/-- Each axis's factor is a logistic, hence a real. -/
theorem side_real (s d : EReal) : ∃ r : ℝ, side s d = (r : EReal) := logistic_real _

/-- A membership is a product of two reals, hence a real. -/
theorem member_real (cx cy w h th gx gy : EReal) : ∃ r : ℝ, member cx cy w h th gx gy = (r : EReal) := by
  obtain ⟨a, ha⟩ := side_real w (mag ((gx - cx) * Ideal.cos th + (gy - cy) * Ideal.sin th))
  obtain ⟨b, hb⟩ := side_real h (mag (-(gx - cx) * Ideal.sin th + (gy - cy) * Ideal.cos th))
  exact ⟨a * b, by rw [member, ha, hb, EReal.coe_mul]⟩

theorem weight_real (B : Boxes) (G : Pixels) (n : Fin 2048) (p : Fin 16384) : ∃ r : ℝ, weight B G n p = (r : EReal) :=
  member_real _ _ _ _ _ _ _

theorem inter_tiles (P T : Boxes) (G : Pixels) (n : Fin 2048) :
    ∑ s ∈ Finset.range 16, ∑ l : Fin 1024, weight P G n (pix s l) * weight T G n (pix s l) = inter P T G n := by
  rw [inter]
  exact sum_tiles (fun p => weight P G n p * weight T G n p)

theorem union_tiles (P T : Boxes) (G : Pixels) (n : Fin 2048) :
    ∑ s ∈ Finset.range 16, ((∑ l : Fin 1024, (weight P G n (pix s l) + weight T G n (pix s l)))
        - ∑ l : Fin 1024, weight P G n (pix s l) * weight T G n (pix s l))
      = total P T G n - inter P T G n := by
  -- every membership is a real: name the reals, and the whole identity is one between real sums
  choose a ha using weight_real P G n
  choose b hb using weight_real T G n
  rw [total, inter]
  simp only [ha, hb, ← EReal.coe_mul, ← EReal.coe_add, coe_sum_real, ← EReal.coe_sub]
  rw [EReal.coe_eq_coe_iff, Finset.sum_sub_distrib, sum_tiles (fun p => a p + b p),
    sum_tiles (fun p => a p * b p)]

end Cert.Pious

end
-- ==== Proof.RefValue.lean ====
/-
  The reference's result, read one operation at a time, is the specification.
-/
import proofs.«115497_j39109972198157_1_alg».proof.Proof.Spec
import proofs.«115497_j39109972198157_1_alg».proof.Proof.SumLaws
import proofs.«115497_j39109972198157_1_alg».proof.Proof.Gen.ReferenceIdeal.Read
import Idealize.ShloMosaic.Lib.ValueIdx
import Idealize.ShloMosaic.Lib.IdealHost
import Idealize.ShloMosaic.PureOps.Ideal.Laws

noncomputable section

open scoped BigOperators
open Idealize.ShloMosaic Idealize.ShloMosaic.ValueIdx

namespace Cert.ReferenceIdeal.RefValue

open Cert.ReferenceIdeal Cert.ReferenceIdeal.Read

/-! ## The first box array: every operand read at box n and pixel p -/

section A
variable (x0 : (⟨S2048x5, .f32⟩ : BufTy).Contents (Elt Ideal)) (x2 : (⟨S16384x2, .f32⟩ : BufTy).Contents (Elt Ideal))
  (n : Fin 2048) (p : Fin 16384)

/-- The pixel's first coordinate, the same for every box. -/
theorem gx_atA : val_main_v8 (F := Ideal) x2 (ix2 n p) = x2 (ix2 p (0 : Fin 2)) := by
  rw [val_main_v8_apply, val_main_v7_apply, val_main_v6_apply, val_main_v5_apply]
  exact congrArg x2 (funext fun a => Fin.ext (by
    match a with
    | ⟨0, _⟩ => exact Nat.div_one _
    | ⟨1, _⟩ => rfl))

/-- The pixel's second coordinate, the same for every box. -/
theorem gy_atA : val_main_v14 (F := Ideal) x2 (ix2 n p) = x2 (ix2 p (1 : Fin 2)) := by
  rw [val_main_v14_apply, val_main_v13_apply, val_main_v12_apply, val_main_v11_apply]
  exact congrArg x2 (funext fun a => Fin.ext (by
    match a with
    | ⟨0, _⟩ => exact Nat.div_one _
    | ⟨1, _⟩ => rfl))

/-- The box's centre abscissa, the same for every pixel. -/
theorem cx_atA : val_main_v9 (F := Ideal) x0 (ix2 n p) = x0 (ix2 n (0 : Fin 5)) := by
  rw [val_main_v9_apply, val_main_v0_apply]
  exact congrArg x0 (funext fun a => Fin.ext (by
    match a with
    | ⟨0, _⟩ => rfl
    | ⟨1, _⟩ => rfl))

/-- The box's centre ordinate, the same for every pixel. -/
theorem cy_atA : val_main_v15 (F := Ideal) x0 (ix2 n p) = x0 (ix2 n (1 : Fin 5)) := by
  rw [val_main_v15_apply, val_main_v1_apply]
  exact congrArg x0 (funext fun a => Fin.ext (by
    match a with
    | ⟨0, _⟩ => rfl
    | ⟨1, _⟩ => rfl))

/-- The cosine of the box's angle, as the first distance uses it. -/
theorem cos_atA : val_main_v19 (F := Ideal) x0 (ix2 n p) = Ideal.cos (x0 (ix2 n (4 : Fin 5))) := by
  rw [val_main_v19_apply, val_main_v17_apply, val_main_v4_apply, Ideal.hostUnary_cos_def]
  exact congrArg (fun t => Ideal.cos (x0 t)) (funext fun a => Fin.ext (by
    match a with
    | ⟨0, _⟩ => rfl
    | ⟨1, _⟩ => rfl))

/-- The sine of the box's angle, as the first distance uses it. -/
theorem sin_atA : val_main_v21 (F := Ideal) x0 (ix2 n p) = Ideal.sin (x0 (ix2 n (4 : Fin 5))) := by
  rw [val_main_v21_apply, val_main_v18_apply, val_main_v4_apply, Ideal.hostUnary_sin_def]
  exact congrArg (fun t => Ideal.sin (x0 t)) (funext fun a => Fin.ext (by
    match a with
    | ⟨0, _⟩ => rfl
    | ⟨1, _⟩ => rfl))

/-- The sine of the box's angle, as the second distance uses it. -/
theorem sin_at'A : val_main_v26 (F := Ideal) x0 (ix2 n p) = Ideal.sin (x0 (ix2 n (4 : Fin 5))) := by
  rw [val_main_v26_apply, val_main_v18_apply, val_main_v4_apply, Ideal.hostUnary_sin_def]
  exact congrArg (fun t => Ideal.sin (x0 t)) (funext fun a => Fin.ext (by
    match a with
    | ⟨0, _⟩ => rfl
    | ⟨1, _⟩ => rfl))

/-- The cosine of the box's angle, as the second distance uses it. -/
theorem cos_at'A : val_main_v28 (F := Ideal) x0 (ix2 n p) = Ideal.cos (x0 (ix2 n (4 : Fin 5))) := by
  rw [val_main_v28_apply, val_main_v17_apply, val_main_v4_apply, Ideal.hostUnary_cos_def]
  exact congrArg (fun t => Ideal.cos (x0 t)) (funext fun a => Fin.ext (by
    match a with
    | ⟨0, _⟩ => rfl
    | ⟨1, _⟩ => rfl))

/-- Half the box's width, the same for every pixel. -/
theorem halfw_atA : val_main_v34 (F := Ideal) x0 (ix2 n p) = x0 (ix2 n (2 : Fin 5)) * Cert.Pious.half := by
  rw [val_main_v34_apply, val_main_v33_apply, val_main_v2_apply, val_main_v32_apply, val_main_cst_apply]
  exact congrArg (fun t => x0 t * Cert.Pious.half) (funext fun a => Fin.ext (by
    match a with
    | ⟨0, _⟩ => rfl
    | ⟨1, _⟩ => rfl))

/-- Half the box's height, the same for every pixel. -/
theorem halfh_atA : val_main_v46 (F := Ideal) x0 (ix2 n p) = x0 (ix2 n (3 : Fin 5)) * Cert.Pious.half := by
  rw [val_main_v46_apply, val_main_v45_apply, val_main_v3_apply, val_main_v44_apply, val_main_cst_3_apply]
  exact congrArg (fun t => x0 t * Cert.Pious.half) (funext fun a => Fin.ext (by
    match a with
    | ⟨0, _⟩ => rfl
    | ⟨1, _⟩ => rfl))

/-- The pixel's distance from the centre along the box's first axis. -/
theorem dw_atA : val_main_v24 (F := Ideal) x0 x2 (ix2 n p)
    = Cert.Pious.mag ((x2 (ix2 p (0 : Fin 2)) - x0 (ix2 n (0 : Fin 5))) * Ideal.cos (x0 (ix2 n (4 : Fin 5)))
        + (x2 (ix2 p (1 : Fin 2)) - x0 (ix2 n (1 : Fin 5))) * Ideal.sin (x0 (ix2 n (4 : Fin 5)))) := by
  rw [val_main_v24_apply, val_main_v23_apply, val_main_v20_apply, val_main_v22_apply, val_main_v10_apply, val_main_v16_apply,
    gx_atA, gy_atA, cx_atA, cy_atA, cos_atA, sin_atA]
  rfl

/-- The pixel's distance from the centre along the box's second axis. -/
theorem dh_atA : val_main_v31 (F := Ideal) x0 x2 (ix2 n p)
    = Cert.Pious.mag (-(x2 (ix2 p (0 : Fin 2)) - x0 (ix2 n (0 : Fin 5))) * Ideal.sin (x0 (ix2 n (4 : Fin 5)))
        + (x2 (ix2 p (1 : Fin 2)) - x0 (ix2 n (1 : Fin 5))) * Ideal.cos (x0 (ix2 n (4 : Fin 5)))) := by
  rw [val_main_v31_apply, val_main_v30_apply, val_main_v27_apply, val_main_v29_apply, val_main_v25_apply, val_main_v10_apply, val_main_v16_apply,
    gx_atA, gy_atA, cx_atA, cy_atA, cos_at'A, sin_at'A]
  rfl

/-- The membership factor along the first axis: the expanded logistic is the logistic. -/
theorem sidew_atA : val_main_v43 (F := Ideal) x0 x2 (ix2 n p)
    = Cert.Pious.side (x0 (ix2 n (2 : Fin 5))) (val_main_v24 (F := Ideal) x0 x2 (ix2 n p)) := by
  rw [val_main_v43_apply, val_main_v42_apply, val_main_cst_2_apply, val_main_v41_apply, val_main_v40_apply, val_main_cst_1_apply, val_main_v39_apply,
    val_main_v38_apply, val_main_v37_apply, val_main_v36_apply, val_main_cst_0_apply, val_main_v35_apply, halfw_atA,
    Ideal.ofBits_def, Ideal.ofBits_one_f32]
  rfl

/-- The membership factor along the second axis. -/
theorem sideh_atA : val_main_v55 (F := Ideal) x0 x2 (ix2 n p)
    = Cert.Pious.side (x0 (ix2 n (3 : Fin 5))) (val_main_v31 (F := Ideal) x0 x2 (ix2 n p)) := by
  rw [val_main_v55_apply, val_main_v54_apply, val_main_cst_6_apply, val_main_v53_apply, val_main_v52_apply, val_main_cst_5_apply, val_main_v51_apply,
    val_main_v50_apply, val_main_v49_apply, val_main_v48_apply, val_main_cst_4_apply, val_main_v47_apply, halfh_atA,
    Ideal.ofBits_def, Ideal.ofBits_one_f32]
  rfl

/-- The product of the two factors is the pixel's soft membership in the box. -/
theorem weight_atA : val_main_v56 (F := Ideal) x0 x2 (ix2 n p) = Cert.Pious.weight x0 x2 n p := by
  rw [val_main_v56_apply, sidew_atA, sideh_atA, dw_atA, dh_atA]
  rfl

end A

/-! ## The second box array: every operand read at box n and pixel p -/

section B
variable (x1 : (⟨S2048x5, .f32⟩ : BufTy).Contents (Elt Ideal)) (x2 : (⟨S16384x2, .f32⟩ : BufTy).Contents (Elt Ideal))
  (n : Fin 2048) (p : Fin 16384)

/-- The pixel's first coordinate, the same for every box. -/
theorem gx_atB : val_main_v65 (F := Ideal) x2 (ix2 n p) = x2 (ix2 p (0 : Fin 2)) := by
  rw [val_main_v65_apply, val_main_v64_apply, val_main_v63_apply, val_main_v62_apply]
  exact congrArg x2 (funext fun a => Fin.ext (by
    match a with
    | ⟨0, _⟩ => exact Nat.div_one _
    | ⟨1, _⟩ => rfl))

/-- The pixel's second coordinate, the same for every box. -/
theorem gy_atB : val_main_v71 (F := Ideal) x2 (ix2 n p) = x2 (ix2 p (1 : Fin 2)) := by
  rw [val_main_v71_apply, val_main_v70_apply, val_main_v69_apply, val_main_v68_apply]
  exact congrArg x2 (funext fun a => Fin.ext (by
    match a with
    | ⟨0, _⟩ => exact Nat.div_one _
    | ⟨1, _⟩ => rfl))

/-- The box's centre abscissa, the same for every pixel. -/
theorem cx_atB : val_main_v66 (F := Ideal) x1 (ix2 n p) = x1 (ix2 n (0 : Fin 5)) := by
  rw [val_main_v66_apply, val_main_v57_apply]
  exact congrArg x1 (funext fun a => Fin.ext (by
    match a with
    | ⟨0, _⟩ => rfl
    | ⟨1, _⟩ => rfl))

/-- The box's centre ordinate, the same for every pixel. -/
theorem cy_atB : val_main_v72 (F := Ideal) x1 (ix2 n p) = x1 (ix2 n (1 : Fin 5)) := by
  rw [val_main_v72_apply, val_main_v58_apply]
  exact congrArg x1 (funext fun a => Fin.ext (by
    match a with
    | ⟨0, _⟩ => rfl
    | ⟨1, _⟩ => rfl))

/-- The cosine of the box's angle, as the first distance uses it. -/
theorem cos_atB : val_main_v76 (F := Ideal) x1 (ix2 n p) = Ideal.cos (x1 (ix2 n (4 : Fin 5))) := by
  rw [val_main_v76_apply, val_main_v74_apply, val_main_v61_apply, Ideal.hostUnary_cos_def]
  exact congrArg (fun t => Ideal.cos (x1 t)) (funext fun a => Fin.ext (by
    match a with
    | ⟨0, _⟩ => rfl
    | ⟨1, _⟩ => rfl))

/-- The sine of the box's angle, as the first distance uses it. -/
theorem sin_atB : val_main_v78 (F := Ideal) x1 (ix2 n p) = Ideal.sin (x1 (ix2 n (4 : Fin 5))) := by
  rw [val_main_v78_apply, val_main_v75_apply, val_main_v61_apply, Ideal.hostUnary_sin_def]
  exact congrArg (fun t => Ideal.sin (x1 t)) (funext fun a => Fin.ext (by
    match a with
    | ⟨0, _⟩ => rfl
    | ⟨1, _⟩ => rfl))

/-- The sine of the box's angle, as the second distance uses it. -/
theorem sin_at'B : val_main_v83 (F := Ideal) x1 (ix2 n p) = Ideal.sin (x1 (ix2 n (4 : Fin 5))) := by
  rw [val_main_v83_apply, val_main_v75_apply, val_main_v61_apply, Ideal.hostUnary_sin_def]
  exact congrArg (fun t => Ideal.sin (x1 t)) (funext fun a => Fin.ext (by
    match a with
    | ⟨0, _⟩ => rfl
    | ⟨1, _⟩ => rfl))

/-- The cosine of the box's angle, as the second distance uses it. -/
theorem cos_at'B : val_main_v85 (F := Ideal) x1 (ix2 n p) = Ideal.cos (x1 (ix2 n (4 : Fin 5))) := by
  rw [val_main_v85_apply, val_main_v74_apply, val_main_v61_apply, Ideal.hostUnary_cos_def]
  exact congrArg (fun t => Ideal.cos (x1 t)) (funext fun a => Fin.ext (by
    match a with
    | ⟨0, _⟩ => rfl
    | ⟨1, _⟩ => rfl))

/-- Half the box's width, the same for every pixel. -/
theorem halfw_atB : val_main_v91 (F := Ideal) x1 (ix2 n p) = x1 (ix2 n (2 : Fin 5)) * Cert.Pious.half := by
  rw [val_main_v91_apply, val_main_v90_apply, val_main_v59_apply, val_main_v89_apply, val_main_cst_7_apply]
  exact congrArg (fun t => x1 t * Cert.Pious.half) (funext fun a => Fin.ext (by
    match a with
    | ⟨0, _⟩ => rfl
    | ⟨1, _⟩ => rfl))

/-- Half the box's height, the same for every pixel. -/
theorem halfh_atB : val_main_v103 (F := Ideal) x1 (ix2 n p) = x1 (ix2 n (3 : Fin 5)) * Cert.Pious.half := by
  rw [val_main_v103_apply, val_main_v102_apply, val_main_v60_apply, val_main_v101_apply, val_main_cst_11_apply]
  exact congrArg (fun t => x1 t * Cert.Pious.half) (funext fun a => Fin.ext (by
    match a with
    | ⟨0, _⟩ => rfl
    | ⟨1, _⟩ => rfl))

/-- The pixel's distance from the centre along the box's first axis. -/
theorem dw_atB : val_main_v81 (F := Ideal) x1 x2 (ix2 n p)
    = Cert.Pious.mag ((x2 (ix2 p (0 : Fin 2)) - x1 (ix2 n (0 : Fin 5))) * Ideal.cos (x1 (ix2 n (4 : Fin 5)))
        + (x2 (ix2 p (1 : Fin 2)) - x1 (ix2 n (1 : Fin 5))) * Ideal.sin (x1 (ix2 n (4 : Fin 5)))) := by
  rw [val_main_v81_apply, val_main_v80_apply, val_main_v77_apply, val_main_v79_apply, val_main_v67_apply, val_main_v73_apply,
    gx_atB, gy_atB, cx_atB, cy_atB, cos_atB, sin_atB]
  rfl

/-- The pixel's distance from the centre along the box's second axis. -/
theorem dh_atB : val_main_v88 (F := Ideal) x1 x2 (ix2 n p)
    = Cert.Pious.mag (-(x2 (ix2 p (0 : Fin 2)) - x1 (ix2 n (0 : Fin 5))) * Ideal.sin (x1 (ix2 n (4 : Fin 5)))
        + (x2 (ix2 p (1 : Fin 2)) - x1 (ix2 n (1 : Fin 5))) * Ideal.cos (x1 (ix2 n (4 : Fin 5)))) := by
  rw [val_main_v88_apply, val_main_v87_apply, val_main_v84_apply, val_main_v86_apply, val_main_v82_apply, val_main_v67_apply, val_main_v73_apply,
    gx_atB, gy_atB, cx_atB, cy_atB, cos_at'B, sin_at'B]
  rfl

/-- The membership factor along the first axis: the expanded logistic is the logistic. -/
theorem sidew_atB : val_main_v100 (F := Ideal) x1 x2 (ix2 n p)
    = Cert.Pious.side (x1 (ix2 n (2 : Fin 5))) (val_main_v81 (F := Ideal) x1 x2 (ix2 n p)) := by
  rw [val_main_v100_apply, val_main_v99_apply, val_main_cst_10_apply, val_main_v98_apply, val_main_v97_apply, val_main_cst_9_apply, val_main_v96_apply,
    val_main_v95_apply, val_main_v94_apply, val_main_v93_apply, val_main_cst_8_apply, val_main_v92_apply, halfw_atB,
    Ideal.ofBits_def, Ideal.ofBits_one_f32]
  rfl

/-- The membership factor along the second axis. -/
theorem sideh_atB : val_main_v112 (F := Ideal) x1 x2 (ix2 n p)
    = Cert.Pious.side (x1 (ix2 n (3 : Fin 5))) (val_main_v88 (F := Ideal) x1 x2 (ix2 n p)) := by
  rw [val_main_v112_apply, val_main_v111_apply, val_main_cst_14_apply, val_main_v110_apply, val_main_v109_apply, val_main_cst_13_apply, val_main_v108_apply,
    val_main_v107_apply, val_main_v106_apply, val_main_v105_apply, val_main_cst_12_apply, val_main_v104_apply, halfh_atB,
    Ideal.ofBits_def, Ideal.ofBits_one_f32]
  rfl

/-- The product of the two factors is the pixel's soft membership in the box. -/
theorem weight_atB : val_main_v113 (F := Ideal) x1 x2 (ix2 n p) = Cert.Pious.weight x1 x2 n p := by
  rw [val_main_v113_apply, sidew_atB, sideh_atB, dw_atB, dh_atB]
  rfl

end B

/-! ## The two sums over the pixels, and the quotient -/

section Sums
variable (x0 x1 : (⟨S2048x5, .f32⟩ : BufTy).Contents (Elt Ideal)) (x2 : (⟨S16384x2, .f32⟩ : BufTy).Contents (Elt Ideal))
  (n : Fin 2048)

/-- The first sum is the soft intersection. -/
theorem inter_at : val_main_v115 (F := Ideal) x0 x1 x2 (ix1 n) = Cert.Pious.inter x0 x1 x2 n := by
  rw [val_main_v115_apply, val_main_cst_15_apply, Ideal.ofBits_def, Ideal.ofBits_zero_f32, zero_add]
  show _ = ∑ p : Fin 16384, Cert.Pious.weight x0 x2 n p * Cert.Pious.weight x1 x2 n p
  refine Finset.sum_congr rfl fun k _ => ?_
  rw [show idx_main_v115 (ix1 n) k = ix2 n k from funext fun a => Fin.ext (by
    match a with
    | ⟨0, _⟩ => rfl
    | ⟨1, _⟩ => rfl), val_main_v114_apply, weight_atA, weight_atB]
  rfl

/-- The second sum is the sum of the two memberships' sum. -/
theorem total_at : val_main_v117 (F := Ideal) x0 x1 x2 (ix1 n) = Cert.Pious.total x0 x1 x2 n := by
  rw [val_main_v117_apply, val_main_cst_16_apply, Ideal.ofBits_def, Ideal.ofBits_zero_f32, zero_add]
  show _ = ∑ p : Fin 16384, (Cert.Pious.weight x0 x2 n p + Cert.Pious.weight x1 x2 n p)
  refine Finset.sum_congr rfl fun k _ => ?_
  rw [show idx_main_v117 (ix1 n) k = ix2 n k from funext fun a => Fin.ext (by
    match a with
    | ⟨0, _⟩ => rfl
    | ⟨1, _⟩ => rfl), val_main_v116_apply, weight_atA, weight_atB]
  rfl

end Sums

theorem ref_eq (x0 x1 : (⟨S2048x5, .f32⟩ : BufTy).Contents (Elt Ideal)) (x2 : (⟨S16384x2, .f32⟩ : BufTy).Contents (Elt Ideal)) :
    val_main_v121 (F := Ideal) x0 x1 x2 = Cert.Pious.iou x0 x1 x2 := by
  funext i
  obtain ⟨n, rfl⟩ : ∃ n, i = ix1 n := ⟨i 0, eq_ix1 i⟩
  rw [val_main_v121_apply, val_main_v120_apply, val_main_v119_apply, val_main_cst_17_apply, val_main_v118_apply,
    inter_at, total_at]
  rfl

end Cert.ReferenceIdeal.RefValue

end
-- ==== Proof.Body.lean ====
/-
  What one grid point's body leaves behind, as functions of what it loads.

  At every grid point the body reads five columns of each 256×5 box block and the two rows of the 2×1024
  pixel block, forms the two 256×1024 membership tiles, and adds to the two running 256×1 accumulators the
  tile's row sums: the products' into the first, the sums' minus the products' into the second. At a box
  tile's first pixel tile the accumulators are first set to zero; at its last the quotient of the first by
  the second plus ε is stored as the output block.
-/
import proofs.«115497_j39109972198157_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-! ## The loads -/

/-- Column `k` of a box block, as the body loads it (a 256×1 vector). -/
def cx (x : Vec F S256x5 .f32) : Vec F S256x1 .f32 := View.ld x (Rect.unit (s := S256x5) ![0, 0] S256x1.size inb_S256x5_S256x1_0_0)
def cy (x : Vec F S256x5 .f32) : Vec F S256x1 .f32 := View.ld x (Rect.unit (s := S256x5) ![0, 1] S256x1.size inb_S256x5_S256x1_0_1)
def bw (x : Vec F S256x5 .f32) : Vec F S256x1 .f32 := View.ld x (Rect.unit (s := S256x5) ![0, 2] S256x1.size inb_S256x5_S256x1_0_2)
def bh (x : Vec F S256x5 .f32) : Vec F S256x1 .f32 := View.ld x (Rect.unit (s := S256x5) ![0, 3] S256x1.size inb_S256x5_S256x1_0_3)
def th (x : Vec F S256x5 .f32) : Vec F S256x1 .f32 := View.ld x (Rect.unit (s := S256x5) ![0, 4] S256x1.size inb_S256x5_S256x1_0_4)
/-- The two rows of the pixel block: the x and the y coordinates of the tile's 1024 pixel centres. -/
def gx (g : Vec F S2x1024 .f32) : Vec F S1x1024 .f32 := View.ld g (Rect.unit (s := S2x1024) ![0, 0] S1x1024.size inb_S2x1024_S1x1024_0_0)
def gy (g : Vec F S2x1024 .f32) : Vec F S1x1024 .f32 := View.ld g (Rect.unit (s := S2x1024) ![1, 0] S1x1024.size inb_S2x1024_S1x1024_1_0)

/-! ## The two membership tiles and the two steps -/

/-- The membership tile of the FIRST box block, as the body computes it. -/
def memP (x : Vec F S256x5 .f32) (g : Vec F S2x1024 .f32) : FVec F S256x1024 .f32 :=
  k0_pay16 (bh x) (k0_pay14 (gx g) (gy g) (cx x) (cy x) (th x)) (k0_pay15 (gx g) (gy g) (cx x) (cy x) (bw x) (th x))
    (FloatOps.ofBits .f32 0x41200000#32)

/-- The distance tile along the height axis and the width-axis factor of the SECOND box block. -/
def dhT (x : Vec F S256x5 .f32) (g : Vec F S2x1024 .f32) : FVec F S256x1024 .f32 :=
  k0_pay21 (k0_pay8 (gx g)) (k0_pay9 (gy g)) (cx x) (cy x) (th x)
def kwT (x : Vec F S256x5 .f32) (g : Vec F S2x1024 .f32) : FVec F S256x1024 .f32 :=
  k0_pay22 (k0_pay8 (gx g)) (k0_pay9 (gy g)) (cx x) (cy x) (bw x) (th x)

/-- The first accumulator after a point, over what it held: plus the row sums of the memberships' product. -/
def stepI (x0 x1 : Vec F S256x5 .f32) (g : Vec F S2x1024 .f32) (acc : Vec F S256x1 .f32) : FVec F S256x1 .f32 :=
  k0_pay3 (memP x0 g) (bh x1) (dhT x1 g) (kwT x1 g) acc

/-- The second accumulator after a point: plus the row sums of the memberships' sum minus those of their product. -/
def stepU (x0 x1 : Vec F S256x5 .f32) (g : Vec F S2x1024 .f32) (acc : Vec F S256x1 .f32) : FVec F S256x1 .f32 :=
  k0_pay4 (memP x0 g) (bh x1) (dhT x1 g) (kwT x1 g) acc

/-! ## The found pieces, case by case -/

/-- A box tile's first point: the first accumulator is set to zero, read back, and stepped. -/
theorem first_I (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i) (x0 : Vec F S256x5 .f32) (x1 : Vec F S256x5 .f32) (x2 : Vec F S2x1024 .f32) :
    sout0_A_0 c i arg2 harg2 arg3 harg3 arg4 harg4 arg5 harg5 arg6 harg6 arg7 harg7 hc0 hc1 x0 x1 x2 = stepI x0 x1 x2 k0_pay6 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread] <;> rfl

/-- … and the second likewise. -/
theorem first_U (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : cond0_0 i) (hc1 : ¬cond0_1 i) (x0 : Vec F S256x5 .f32) (x1 : Vec F S256x5 .f32) (x2 : Vec F S2x1024 .f32) :
    sout0_A_1 c i arg2 harg2 arg3 harg3 arg4 harg4 arg5 harg5 arg6 harg6 arg7 harg7 hc0 hc1 x0 x1 x2 = stepU x0 x1 x2 k0_pay7 := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A
  dsimp only
  sl_unfold_words
  rw [View.canon_cons_unit_zero (S := S256x1) hz2, View.readCov_unit_zero (S := S256x1) _ hz2]
  simp only [View.readAt_eq_ld, harg2.read_unread, harg3.read_unread, harg4.read_unread] <;> rfl

/-- A middle point steps the first accumulator from what the point before left. -/
theorem mid_I (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i) (x0 : Vec F S256x5 .f32) (x1 : Vec F S256x5 .f32) (x2 : Vec F S2x1024 .f32) (xs0 : Vec F S256x1 .f32) (xs1 : Vec F S256x1 .f32) :
    sout0_B_0 c i arg2 harg2 arg3 harg3 arg4 harg4 arg5 harg5 arg6 harg6 arg7 harg7 hc0 hc1 x0 x1 x2 xs0 xs1 = stepI x0 x1 x2 xs0 := by
  unfold sout0_B_0
  rw [View.read_writes_eq_canon _ _ _ (scover0_B_0 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg6.read_unread,
    View.ld_unit_zero (S := S256x1) hz2] <;> rfl

theorem mid_U (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : ¬cond0_1 i) (x0 : Vec F S256x5 .f32) (x1 : Vec F S256x5 .f32) (x2 : Vec F S2x1024 .f32) (xs0 : Vec F S256x1 .f32) (xs1 : Vec F S256x1 .f32) :
    sout0_B_1 c i arg2 harg2 arg3 harg3 arg4 harg4 arg5 harg5 arg6 harg6 arg7 harg7 hc0 hc1 x0 x1 x2 xs0 xs1 = stepU x0 x1 x2 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B
  dsimp only
  sl_unfold_words
  rw [View.canon_unit_zero hz2]
  simp only [View.readAt_eq_ld, harg2.read_unread, harg3.read_unread, harg4.read_unread, harg7.read_unread,
    View.ld_unit_zero (S := S256x1) hz2] <;> rfl

/-- A box tile's last point steps both accumulators the same way … -/
theorem last_I (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i) (x0 : Vec F S256x5 .f32) (x1 : Vec F S256x5 .f32) (x2 : Vec F S2x1024 .f32) (xs0 : Vec F S256x1 .f32) (xs1 : Vec F S256x1 .f32) :
    sout0_C_0 c i arg2 harg2 arg3 harg3 arg4 harg4 arg5 harg5 arg6 harg6 arg7 harg7 hc0 hc1 x0 x1 x2 xs0 xs1 = stepI x0 x1 x2 xs0 := by
  unfold sout0_C_0
  rw [View.read_writes_eq_canon _ _ _ (scover0_C_0 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg6.read_unread,
    View.ld_unit_zero (S := S256x1) hz2] <;> rfl

theorem last_U (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i) (x0 : Vec F S256x5 .f32) (x1 : Vec F S256x5 .f32) (x2 : Vec F S2x1024 .f32) (xs0 : Vec F S256x1 .f32) (xs1 : Vec F S256x1 .f32) :
    sout0_C_1 c i arg2 harg2 arg3 harg3 arg4 harg4 arg5 harg5 arg6 harg6 arg7 harg7 hc0 hc1 x0 x1 x2 xs0 xs1 = stepU x0 x1 x2 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C
  dsimp only
  sl_unfold_words
  rw [View.canon_unit_zero hz2]
  simp only [View.readAt_eq_ld, harg2.read_unread, harg3.read_unread, harg4.read_unread, harg7.read_unread,
    View.ld_unit_zero (S := S256x1) hz2] <;> rfl

/-- … and stores, as the output block, the quotient formed from the two accumulators it has just stepped. -/
theorem last_out (c : Dev nD) (i : grid0.Coords) (arg2 : Memref sig .tc .vmem S256x5 .f32) (harg2 : arg2.IsWhole) (arg3 : Memref sig .tc .vmem S256x5 .f32) (harg3 : arg3.IsWhole) (arg4 : Memref sig .tc .vmem S2x1024 .f32) (harg4 : arg4.IsWhole) (arg5 : Memref sig .tc .vmem S256 .f32) (harg5 : arg5.IsWhole) (arg6 : Memref sig .tc .vmem S256x1 .f32) (harg6 : arg6.IsWhole) (arg7 : Memref sig .tc .vmem S256x1 .f32) (harg7 : arg7.IsWhole) (hc0 : ¬cond0_0 i) (hc1 : cond0_1 i) (x0 : Vec F S256x5 .f32) (x1 : Vec F S256x5 .f32) (x2 : Vec F S2x1024 .f32) (xs0 : Vec F S256x1 .f32) (xs1 : Vec F S256x1 .f32) :
    out0_C_3 c i arg2 harg2 arg3 harg3 arg4 harg4 arg5 harg5 arg6 harg6 arg7 harg7 hc0 hc1 x0 x1 x2 xs0 xs1 = k0_pay5 (stepI x0 x1 x2 xs0) (stepU x0 x1 x2 xs1) := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C
  dsimp only
  sl_unfold_words
  rw [View.canon_unit_zero hz1, View.readCov_unit_zero (S := S256x1) _ hz2, View.readCov_unit_zero (S := S256x1) _ hz2]
  simp only [View.readAt_eq_ld, harg2.read_unread, harg3.read_unread, harg4.read_unread, harg6.read_unread,
    harg7.read_unread, View.ld_unit_zero (S := S256x1) hz2] <;> rfl

end Cert.KernelIdeal.Body

end
-- ==== Proof.TileValue.lean ====
/-
  One point's steps, read at an index over the extended reals.

  Row `r` of the membership tile of a box block `x` against a pixel block `g` holds, at lane `l`, the
  soft membership of pixel `l` of the tile in box `r` of the tile; the first accumulator's step adds the
  row's sum of the two memberships' products, the second's the row's sum of their sums minus that.
-/
import proofs.«115497_j39109972198157_1_alg».proof.Proof.Body
import proofs.«115497_j39109972198157_1_alg».proof.Proof.Spec
import proofs.«115497_j39109972198157_1_alg».proof.Proof.RefValue
import Idealize.ShloMosaic.Lib.ValueIdx
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen Cert.KernelIdeal.Body

/-! ## Layout operations at explicit coordinates -/

/-- A 256×1 column spread along the 1024 lanes reads the column's row. -/
theorem spread_col (v : FVec Ideal S256x1 .f32) (r : Fin 256) (l : Fin 1024) :
    broadcastTo S256x1024 v broadcasts_S256x1_S256x1024 (ix2 r l) = v (ix2 r (0 : Fin 1)) :=
  broadcastTo_apply v broadcasts_S256x1_S256x1024 (ix2 r l) (ix2 r (0 : Fin 1)) (fun a => match a with
    | ⟨0, _⟩ => by show r.val = if (256 : Nat) = 1 then 0 else r.val; rw [if_neg (by decide)]
    | ⟨1, _⟩ => by show 0 = if (1 : Nat) = 1 then 0 else l.val; rw [if_pos rfl])

/-- A 1×1024 row spread down the 256 rows reads the row's lane. -/
theorem spread_row (v : FVec Ideal S1x1024 .f32) (r : Fin 256) (l : Fin 1024) :
    broadcastTo S256x1024 v broadcasts_S1x1024_S256x1024 (ix2 r l) = v (ix2 (0 : Fin 1) l) :=
  broadcastTo_apply v broadcasts_S1x1024_S256x1024 (ix2 r l) (ix2 (0 : Fin 1) l) (fun a => match a with
    | ⟨0, _⟩ => by show 0 = if (1 : Nat) = 1 then 0 else r.val; rw [if_pos rfl]
    | ⟨1, _⟩ => by show l.val = if (1024 : Nat) = 1 then 0 else l.val; rw [if_neg (by decide)])

/-- The loads at explicit coordinates: column `k` of the box block, row `a` of the pixel block. -/
theorem cx_apply (x : Vec Ideal S256x5 .f32) (r : Fin 256) : cx x (ix2 r (0 : Fin 1)) = x (ix2 r (0 : Fin 5)) :=
  congrArg x (funext fun a => Fin.ext (by match a with | ⟨0, _⟩ => exact (by show 0 + 1 * r.val = r.val; omega) | ⟨1, _⟩ => rfl))
theorem cy_apply (x : Vec Ideal S256x5 .f32) (r : Fin 256) : cy x (ix2 r (0 : Fin 1)) = x (ix2 r (1 : Fin 5)) :=
  congrArg x (funext fun a => Fin.ext (by match a with | ⟨0, _⟩ => exact (by show 0 + 1 * r.val = r.val; omega) | ⟨1, _⟩ => rfl))
theorem bw_apply (x : Vec Ideal S256x5 .f32) (r : Fin 256) : bw x (ix2 r (0 : Fin 1)) = x (ix2 r (2 : Fin 5)) :=
  congrArg x (funext fun a => Fin.ext (by match a with | ⟨0, _⟩ => exact (by show 0 + 1 * r.val = r.val; omega) | ⟨1, _⟩ => rfl))
theorem bh_apply (x : Vec Ideal S256x5 .f32) (r : Fin 256) : bh x (ix2 r (0 : Fin 1)) = x (ix2 r (3 : Fin 5)) :=
  congrArg x (funext fun a => Fin.ext (by match a with | ⟨0, _⟩ => exact (by show 0 + 1 * r.val = r.val; omega) | ⟨1, _⟩ => rfl))
theorem th_apply (x : Vec Ideal S256x5 .f32) (r : Fin 256) : th x (ix2 r (0 : Fin 1)) = x (ix2 r (4 : Fin 5)) :=
  congrArg x (funext fun a => Fin.ext (by match a with | ⟨0, _⟩ => exact (by show 0 + 1 * r.val = r.val; omega) | ⟨1, _⟩ => rfl))
theorem gx_apply (g : Vec Ideal S2x1024 .f32) (l : Fin 1024) : gx g (ix2 (0 : Fin 1) l) = g (ix2 (0 : Fin 2) l) :=
  congrArg g (funext fun a => Fin.ext (by match a with | ⟨0, _⟩ => rfl | ⟨1, _⟩ => exact (by show 0 + 1 * l.val = l.val; omega)))
theorem gy_apply (g : Vec Ideal S2x1024 .f32) (l : Fin 1024) : gy g (ix2 (0 : Fin 1) l) = g (ix2 (1 : Fin 2) l) :=
  congrArg g (funext fun a => Fin.ext (by match a with | ⟨0, _⟩ => rfl | ⟨1, _⟩ => exact (by show 0 + 1 * l.val = l.val; omega)))

/-! ## The pointwise operations at an index -/

section Pointwise
variable {s : Shape}
theorem absf_at (a : FVec Ideal s .f32) (i : s.Idx) : absf a i = max (a i) (-(a i)) := rfl
theorem cos_at (a : FVec Ideal s .f32) (i : s.Idx) : cos a i = Ideal.cos (a i) := rfl
theorem sin_at (a : FVec Ideal s .f32) (i : s.Idx) : sin a i = Ideal.sin (a i) := rfl
theorem logistic_at (a : FVec Ideal s .f32) (i : s.Idx) : logistic a i = Ideal.logistic (a i) := rfl
end Pointwise

/-- Zero minus an extended real is its negation. -/
theorem zero_sub_ereal (t : EReal) : (0 : EReal) - t = -t := by rw [sub_eq_add_neg, zero_add]

/-! ## The two reshapes between a 256-vector and a 256×1 column, and a row's sum -/

theorem col_of_vec (v : FVec Ideal S256 .f32) (r : Fin 256) :
    shapeCast S256x1 v shapeCasts_S256_S256x1 (ix2 r (0 : Fin 1)) = v (ix1 r) :=
  shapeCast_apply v shapeCasts_S256_S256x1 (ix2 r (0 : Fin 1)) (ix1 r) (by
    rw [Shape.rowMajor_val_one, Shape.rowMajor_val_two]; show r.val = r.val * 1 + 0; omega)

theorem vec_of_col (v : FVec Ideal S256x1 .f32) (r : Fin 256) :
    shapeCast S256 v shapeCasts_S256x1_S256 (ix1 r) = v (ix2 r (0 : Fin 1)) :=
  shapeCast_apply v shapeCasts_S256x1_S256 (ix1 r) (ix2 r (0 : Fin 1)) (by
    rw [Shape.rowMajor_val_one, Shape.rowMajor_val_two]; show r.val * 1 + 0 = r.val; omega)

/-- The lane reduction of a 256×1024 tile, at row `r`: the sum of the row. -/
theorem row_sum (src : FVec Ideal S256x1024 .f32) (hφ : FKind.Formats FTy.f32)
    (hacc : (0x00000000#32 : BitVec 32) = FKind.add.neutral FTy.f32 hφ) (r : Fin 256) :
    multiReduction (F := Ideal) .add [1] S256 src 0x00000000#32 reduces_S256x1024_S256 hφ hacc (ix1 r)
      = ∑ l : Fin 1024, src (ix2 r l) := by
  refine (Ideal.multiReduction_add_single src 0x00000000#32 reduces_S256x1024_S256 hφ hacc (ix1 r)).trans ?_
  refine Finset.sum_congr rfl fun l _ => congrArg src ?_
  funext a
  match a with
  | ⟨0, _⟩ => rfl
  | ⟨1, _⟩ => rfl

/-! ## The membership tiles -/

/-- The soft membership of the tile's pixel `l` in the tile's box `r`, from the two blocks. -/
def wB (x : Vec Ideal S256x5 .f32) (g : Vec Ideal S2x1024 .f32) (r : Fin 256) (l : Fin 1024) : EReal :=
  Cert.Pious.member (x (ix2 r (0 : Fin 5))) (x (ix2 r (1 : Fin 5))) (x (ix2 r (2 : Fin 5))) (x (ix2 r (3 : Fin 5)))
    (x (ix2 r (4 : Fin 5))) (g (ix2 (0 : Fin 2) l)) (g (ix2 (1 : Fin 2) l))

theorem memP_apply (x : Vec Ideal S256x5 .f32) (g : Vec Ideal S2x1024 .f32) (r : Fin 256) (l : Fin 1024) :
    memP (F := Ideal) x g (ix2 r l) = wB x g r l := by
  unfold memP k0_pay16 k0_pay15 k0_pay14 k0_pay10 k0_pay11 k0_pay12 k0_pay13 k0_pay8 k0_pay9
  simp only [mulf_apply, subf_apply, addf_apply, absf_at, cos_at, sin_at, logistic_at, broadcast_apply, spread_col,
    spread_row, shapeCast_self, cx_apply, cy_apply, bw_apply, bh_apply, th_apply, gx_apply, gy_apply, Ideal.ofBits_def,
    Ideal.ofBits_zero_f32, zero_sub_ereal]
  rfl

/-- The second operand's tile, spelt by the body as width factor times height factor, is the same function. -/
theorem memT_apply (x : Vec Ideal S256x5 .f32) (g : Vec Ideal S2x1024 .f32) (r : Fin 256) (l : Fin 1024) :
    k0_pay1 (F := Ideal) (bh x) (dhT x g) (kwT x g) (ix2 r l) = wB x g r l := by
  unfold k0_pay1 dhT kwT k0_pay21 k0_pay22 k0_pay17 k0_pay18 k0_pay19 k0_pay20 k0_pay8 k0_pay9
  simp only [mulf_apply, subf_apply, addf_apply, absf_at, cos_at, sin_at, logistic_at, broadcast_apply, spread_col,
    spread_row, shapeCast_self, cx_apply, cy_apply, bw_apply, bh_apply, th_apply, gx_apply, gy_apply, Ideal.ofBits_def,
    Ideal.ofBits_zero_f32, zero_sub_ereal]
  rfl

/-! ## The steps, the zero and the quotient at a row -/

/-- The first accumulator's step adds the row's sum of the two memberships' products. -/
theorem stepI_apply (x0 x1 : Vec Ideal S256x5 .f32) (g : Vec Ideal S2x1024 .f32) (acc : Vec Ideal S256x1 .f32) (r : Fin 256) :
    stepI (F := Ideal) x0 x1 g acc (ix2 r (0 : Fin 1))
      = acc (ix2 r (0 : Fin 1)) + ∑ l : Fin 1024, wB x0 g r l * wB x1 g r l := by
  unfold stepI k0_pay3 k0_pay2
  simp only [shapeCast_self, addf_apply, col_of_vec]
  refine congrArg (acc (ix2 r (0 : Fin 1)) + ·) ((row_sum _ _ _ r).trans ?_)
  exact Finset.sum_congr rfl fun l _ => by rw [mulf_apply, memP_apply, memT_apply]

/-- The second accumulator's step adds the row's sum of the memberships' sums minus that of their products. -/
theorem stepU_apply (x0 x1 : Vec Ideal S256x5 .f32) (g : Vec Ideal S2x1024 .f32) (acc : Vec Ideal S256x1 .f32) (r : Fin 256) :
    stepU (F := Ideal) x0 x1 g acc (ix2 r (0 : Fin 1))
      = acc (ix2 r (0 : Fin 1)) + ((∑ l : Fin 1024, (wB x0 g r l + wB x1 g r l)) - ∑ l : Fin 1024, wB x0 g r l * wB x1 g r l) := by
  unfold stepU k0_pay4 k0_pay2
  simp only [shapeCast_self, addf_apply, subf_apply, col_of_vec]
  refine congrArg (acc (ix2 r (0 : Fin 1)) + ·) (congrArg₂ (· - ·) ((row_sum _ _ _ r).trans ?_) ((row_sum _ _ _ r).trans ?_))
  · exact Finset.sum_congr rfl fun l _ => by rw [addf_apply, memP_apply, memT_apply]
  · exact Finset.sum_congr rfl fun l _ => by rw [mulf_apply, memP_apply, memT_apply]

/-- The zero the accumulators are set to. -/
theorem zeroI_apply (r : Fin 256) : k0_pay6 (F := Ideal) (ix2 r (0 : Fin 1)) = 0 := by
  unfold k0_pay6
  simp only [shapeCast_self, broadcast_apply, Ideal.ofBits_def, Ideal.ofBits_zero_f32]
theorem zeroU_apply (r : Fin 256) : k0_pay7 (F := Ideal) (ix2 r (0 : Fin 1)) = 0 := by
  unfold k0_pay7
  simp only [shapeCast_self, broadcast_apply, Ideal.ofBits_def, Ideal.ofBits_zero_f32]

/-- The stored quotient at a row: the first accumulator over the second plus ε. -/
theorem quot_apply (a b : Vec Ideal S256x1 .f32) (r : Fin 256) :
    k0_pay5 (F := Ideal) a b (ix1 r) = Ideal.div (a (ix2 r (0 : Fin 1))) (b (ix2 r (0 : Fin 1)) + Cert.Pious.guard) := by
  unfold k0_pay5
  simp only [vec_of_col, divf_apply, addf_apply, broadcast_apply, Ideal.ofBits_def]

end Cert.KernelIdeal.Tile

end
-- ==== Proof.Blocks.lean ====
/-
  What the staged blocks hold, in terms of the three argument arrays.

  Grid point `t` (of 8 × 16, box tile major) stages rows `256·(t / 16) …` of each box array and, of the
  transposed pixel array, columns `1024·(t % 16) …`: so row `r`, lane `l` of its membership tiles are
  the memberships of pixel `1024·(t % 16) + l` in box `256·(t / 16) + r`.
-/
import proofs.«115497_j39109972198157_1_alg».proof.Proof.TileValue
import Idealize.ShloMosaic.Lib.ValueLayout
import Idealize.ShloMosaic.Lib.StableHlo.Run

noncomputable section

open scoped BigOperators
open Idealize.ShloMosaic Idealize.ShloMosaic.TcCoe Idealize.SL.Sem Idealize.ShloMosaic.ValueIdx

namespace Cert.KernelIdeal.Blocks

open Cert.KernelIdeal Cert.KernelIdeal.Gen Cert.KernelIdeal.Body Cert.KernelIdeal.Tile

variable (m : (ℓ : Loc nD τ sig) → Buf (Elt Ideal) ℓ)

/-- The blocks a point stages, at their literal types. -/
abbrev blkP (c : Dev nD) (t : Fin cfg0.N) : Vec Ideal S256x5 .f32 := iblk m c 0 t
abbrev blkT (c : Dev nD) (t : Fin cfg0.N) : Vec Ideal S256x5 .f32 := iblk m c 1 t
abbrev blkG (c : Dev nD) (t : Fin cfg0.N) : Vec Ideal S2x1024 .f32 := iblk m c 2 t

/-- The three argument arrays as launched. -/
abbrev arrP (c : Dev nD) : Cert.Pious.Boxes := m ((c : Thread nD τ).loc main_arg0)
abbrev arrT (c : Dev nD) : Cert.Pious.Boxes := m ((c : Thread nD τ).loc main_arg1)
abbrev arrG (c : Dev nD) : Cert.Pious.Pixels := m ((c : Thread nD τ).loc main_arg2)

/-- The printed index maps, decided over the grid: the box windows follow the box tile, the pixel window the pixel tile. -/
theorem idx_facts : ∀ t : Fin cfg0.N, win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = 0 ∧ win0_2.index t (1 : Fin 2) = t.val % 16
    ∧ win0_3.index t (0 : Fin 1) = t.val / 16 :=
  (by decide +kernel : ∀ t : Fin grid0.N, _)

/-- The pixel window's array is the pixel array transposed. -/
theorem arr_v0 (c : Dev nD) : (V m c main_v0 : S2x16384.Idx → EReal)
    = transpose S2x16384 [1, 0] (arrG m c) transposes_S16384x2_S2x16384_1_0 := by
  dsimp only [Gen.V, Gen.hostOps0]; after_results

theorem blkP_apply (c : Dev nD) (t : Fin cfg0.N) (r : Fin 256) (k : Fin 5) :
    blkP m c t (ix2 r k) = arrP m c (ix2 (Cert.Pious.row (t.val / 16) r) k) := by
  obtain ⟨e0, e1, -⟩ := idx_facts t
  have hN : t.val < 128 := lt_of_lt_of_eq t.isLt (show cfg0.N = 128 from N_0)
  show V m c main_arg0 (((cfg0.win 0).blk t).view.emb (ix2 r k)) = _
  rw [V_main_arg0]
  refine congrArg (arrP m c) (funext fun a => Fin.ext ?_)
  match a with
  | ⟨0, _⟩ => show win0_0.index t (0 : Fin 2) * 256 + 1 * r.val = 256 * (t.val / 16 % 8) + r.val; omega
  | ⟨1, _⟩ => show win0_0.index t (1 : Fin 2) * 5 + 1 * k.val = k.val; omega

theorem blkT_apply (c : Dev nD) (t : Fin cfg0.N) (r : Fin 256) (k : Fin 5) :
    blkT m c t (ix2 r k) = arrT m c (ix2 (Cert.Pious.row (t.val / 16) r) k) := by
  obtain ⟨-, -, e0, e1, -⟩ := idx_facts t
  have hN : t.val < 128 := lt_of_lt_of_eq t.isLt (show cfg0.N = 128 from N_0)
  show V m c main_arg1 (((cfg0.win 1).blk t).view.emb (ix2 r k)) = _
  rw [V_main_arg1]
  refine congrArg (arrT m c) (funext fun a => Fin.ext ?_)
  match a with
  | ⟨0, _⟩ => show win0_1.index t (0 : Fin 2) * 256 + 1 * r.val = 256 * (t.val / 16 % 8) + r.val; omega
  | ⟨1, _⟩ => show win0_1.index t (1 : Fin 2) * 5 + 1 * k.val = k.val; omega

theorem blkG_apply (c : Dev nD) (t : Fin cfg0.N) (a : Fin 2) (l : Fin 1024) :
    blkG m c t (ix2 a l) = arrG m c (ix2 (Cert.Pious.pix t.val l) a) := by
  obtain ⟨-, -, -, -, e0, e1, -⟩ := idx_facts t
  show V m c main_v0 (((cfg0.win 2).blk t).view.emb (ix2 a l)) = _
  rw [arr_v0]
  have hidx : ((cfg0.win 2).blk t).view.emb (ix2 a l) = (ix2 a (Cert.Pious.pix t.val l) : S2x16384.Idx) := by
    funext b; apply Fin.ext
    match b with
    | ⟨0, _⟩ => show win0_2.index t (0 : Fin 2) * 2 + 1 * a.val = a.val; omega
    | ⟨1, _⟩ => show win0_2.index t (1 : Fin 2) * 1024 + 1 * l.val = 1024 * (t.val % 16) + l.val; omega
  rw [hidx]
  exact transpose_ix2_apply (arrG m c) transposes_S16384x2_S2x16384_1_0 a (Cert.Pious.pix t.val l)

/-- Row `r`, lane `l` of a point's membership tile is the membership of the tile's pixel in the tile's box. -/
theorem wP_apply (c : Dev nD) (t : Fin cfg0.N) (r : Fin 256) (l : Fin 1024) :
    wB (blkP m c t) (blkG m c t) r l = Cert.Pious.weight (arrP m c) (arrG m c) (Cert.Pious.row (t.val / 16) r) (Cert.Pious.pix t.val l) := by
  unfold wB Cert.Pious.weight
  rw [blkP_apply, blkP_apply, blkP_apply, blkP_apply, blkP_apply, blkG_apply, blkG_apply]

theorem wT_apply (c : Dev nD) (t : Fin cfg0.N) (r : Fin 256) (l : Fin 1024) :
    wB (blkT m c t) (blkG m c t) r l = Cert.Pious.weight (arrT m c) (arrG m c) (Cert.Pious.row (t.val / 16) r) (Cert.Pious.pix t.val l) := by
  unfold wB Cert.Pious.weight
  rw [blkT_apply, blkT_apply, blkT_apply, blkT_apply, blkT_apply, blkG_apply, blkG_apply]

end Cert.KernelIdeal.Blocks

end
-- ==== Proof.Fold.lean ====
/-
  The two accumulators after a box tile's last pixel tile, and the block stored there.

  Over the sixteen points of a box tile the first accumulator goes from zero through the sixteen tiles' row sums
  of the memberships' products, the second through their row sums of (sum − product). So after the last point
  they hold, row by row, the soft intersection and the soft union of the row's two boxes over all 16384
  pixels, and the block stored at that point is the result for the tile's 256 rows.
-/
import proofs.«115497_j39109972198157_1_alg».proof.Proof.Blocks
import proofs.«115497_j39109972198157_1_alg».proof.Proof.Gen.KernelIdeal.Value

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.KernelIdeal.Body Cert.KernelIdeal.Tile Cert.KernelIdeal.Blocks
open Cert.Pious (weight inter total iou row pix)

variable (m : (ℓ : Loc nD τ sig) → Buf (Elt Ideal) ℓ)

/-- What point `n` adds to row `i` of the first accumulator: its pixel tile's sum of the two memberships' products. -/
def addI (c : Dev nD) (n : ℕ) (i : S256x1.Idx) : EReal :=
  ∑ l : Fin 1024, weight (arrP m c) (arrG m c) (row (n / 16) (i 0)) (pix n l) * weight (arrT m c) (arrG m c) (row (n / 16) (i 0)) (pix n l)

/-- What point `n` adds to row `i` of the second accumulator: the tile's sum of the memberships' sums, minus the above. -/
def addU (c : Dev nD) (n : ℕ) (i : S256x1.Idx) : EReal :=
  (∑ l : Fin 1024, (weight (arrP m c) (arrG m c) (row (n / 16) (i 0)) (pix n l) + weight (arrT m c) (arrG m c) (row (n / 16) (i 0)) (pix n l)))
    - ∑ l : Fin 1024, weight (arrP m c) (arrG m c) (row (n / 16) (i 0)) (pix n l) * weight (arrT m c) (arrG m c) (row (n / 16) (i 0)) (pix n l)

/-- One step of the first accumulator at a point, at a row. -/
theorem stepI_at (c : Dev nD) (t : Fin cfg0.N) (acc : Vec Ideal S256x1 .f32) (i : S256x1.Idx) :
    stepI (F := Ideal) (blkP m c t) (blkT m c t) (blkG m c t) acc i = acc i + addI m c t.val i := by
  obtain ⟨r, z, rfl⟩ : ∃ (r : Fin 256) (z : Fin 1), i = ix2 r z := ⟨i 0, i 1, eq_ix2 i⟩
  obtain rfl : z = 0 := Subsingleton.elim _ _
  refine (stepI_apply (blkP m c t) (blkT m c t) (blkG m c t) acc r).trans ?_
  refine congrArg (acc (ix2 r (0 : Fin 1)) + ·) (Finset.sum_congr rfl fun l _ => ?_)
  rw [wP_apply, wT_apply]

/-- One step of the second accumulator at a point, at a row. -/
theorem stepU_at (c : Dev nD) (t : Fin cfg0.N) (acc : Vec Ideal S256x1 .f32) (i : S256x1.Idx) :
    stepU (F := Ideal) (blkP m c t) (blkT m c t) (blkG m c t) acc i = acc i + addU m c t.val i := by
  obtain ⟨r, z, rfl⟩ : ∃ (r : Fin 256) (z : Fin 1), i = ix2 r z := ⟨i 0, i 1, eq_ix2 i⟩
  obtain rfl : z = 0 := Subsingleton.elim _ _
  refine (stepU_apply (blkP m c t) (blkT m c t) (blkG m c t) acc r).trans ?_
  refine congrArg (acc (ix2 r (0 : Fin 1)) + ·) (congrArg₂ (· - ·) (Finset.sum_congr rfl fun l _ => ?_) (Finset.sum_congr rfl fun l _ => ?_))
  · rw [wP_apply, wT_apply]
  · rw [wP_apply, wT_apply]

theorem zero_at (i : S256x1.Idx) : k0_pay6 (F := Ideal) i = 0 := by
  obtain ⟨r, z, rfl⟩ : ∃ (r : Fin 256) (z : Fin 1), i = ix2 r z := ⟨i 0, i 1, eq_ix2 i⟩
  obtain rfl : z = 0 := Subsingleton.elim _ _
  exact zeroI_apply r
theorem zero_at' (i : S256x1.Idx) : k0_pay7 (F := Ideal) i = 0 := by
  obtain ⟨r, z, rfl⟩ : ∃ (r : Fin 256) (z : Fin 1), i = ix2 r z := ⟨i 0, i 1, eq_ix2 i⟩
  obtain rfl : z = 0 := Subsingleton.elim _ _
  exact zeroU_apply r

/-! ## The generated per-point terms, case by case -/

/-- At a box tile's first point the first accumulator restarts from zero. -/
theorem reset_I (c : Dev nD) (q : ℕ) (h : 16 * q < cfg0.N) (acc : Vec Ideal S256x1 .f32) (i : S256x1.Idx) :
    Cert.KernelIdeal.Value.scAt0_0 m c (16 * q) h acc i = 0 + addI m c (16 * q) i := by
  unfold Cert.KernelIdeal.Value.scAt0_0
  rw [dif_pos (by omega : 16 * q % 16 = 0), dif_neg (by omega : ¬16 * q % 16 = 15), first_I]
  refine (stepI_at m c ⟨16 * q, h⟩ (k0_pay6 (F := Ideal)) i).trans ?_
  rw [zero_at]

theorem reset_U (c : Dev nD) (q : ℕ) (h : 16 * q < cfg0.N) (acc : Vec Ideal S256x1 .f32) (i : S256x1.Idx) :
    Cert.KernelIdeal.Value.scAt0_1 m c (16 * q) h acc i = 0 + addU m c (16 * q) i := by
  unfold Cert.KernelIdeal.Value.scAt0_1
  rw [dif_pos (by omega : 16 * q % 16 = 0), dif_neg (by omega : ¬16 * q % 16 = 15), first_U]
  refine (stepU_at m c ⟨16 * q, h⟩ (k0_pay7 (F := Ideal)) i).trans ?_
  rw [zero_at']

/-- At every later point of the tile it steps from what the point before left. -/
theorem next_I (c : Dev nD) (n : ℕ) (h : n < cfg0.N) (hn : ¬n % 16 = 0) (acc : Vec Ideal S256x1 .f32) (i : S256x1.Idx) :
    Cert.KernelIdeal.Value.scAt0_0 m c n h acc i = acc i + addI m c n i := by
  unfold Cert.KernelIdeal.Value.scAt0_0
  rw [dif_neg hn]
  by_cases h1 : n % 16 = 15
  · rw [dif_pos h1, last_I]; exact stepI_at m c ⟨n, h⟩ acc i
  · rw [dif_neg h1, mid_I]; exact stepI_at m c ⟨n, h⟩ acc i

theorem next_U (c : Dev nD) (n : ℕ) (h : n < cfg0.N) (hn : ¬n % 16 = 0) (acc : Vec Ideal S256x1 .f32) (i : S256x1.Idx) :
    Cert.KernelIdeal.Value.scAt0_1 m c n h acc i = acc i + addU m c n i := by
  unfold Cert.KernelIdeal.Value.scAt0_1
  rw [dif_neg hn]
  by_cases h1 : n % 16 = 15
  · rw [dif_pos h1, last_U]; exact stepU_at m c ⟨n, h⟩ acc i
  · rw [dif_neg h1, mid_U]; exact stepU_at m c ⟨n, h⟩ acc i

/-! ## The folds, as sums over the tile's points -/

open Cert.KernelIdeal.Value (scAt0_0 scAt0_1 soutsAt0_0_eq soutsAt0_1_eq)

/-- The first accumulator after `j` further points of box tile `q`: the sum of the addends so far. -/
theorem accI_fold (c : Dev nD) (q j : ℕ) (hj : j ≤ 15) (h : 16 * q + j < cfg0.N) (i : S256x1.Idx) :
    Pipeline.accAt (fun n h => scAt0_0 m c n h (VS0_0.read (Elt Ideal) VS0_0.junk)) (scAt0_0 m c) (16 * q) j h i
      = 0 + ∑ s ∈ Finset.range (j + 1), addI m c (16 * q + s) i :=
  Pipeline.accAt_add_apply (ι := S256x1.Idx) (β := EReal) _ _ (fun _ => (0 : EReal)) (addI m c) (16 * q) 15
    (fun h i => reset_I m c q h _ i)
    (fun n h acc i hlo hhi => next_I m c n h (by omega) acc i) j hj h i

theorem accU_fold (c : Dev nD) (q j : ℕ) (hj : j ≤ 15) (h : 16 * q + j < cfg0.N) (i : S256x1.Idx) :
    Pipeline.accAt (fun n h => scAt0_1 m c n h (VS0_1.read (Elt Ideal) VS0_1.junk)) (scAt0_1 m c) (16 * q) j h i
      = 0 + ∑ s ∈ Finset.range (j + 1), addU m c (16 * q + s) i :=
  Pipeline.accAt_add_apply (ι := S256x1.Idx) (β := EReal) _ _ (fun _ => (0 : EReal)) (addU m c) (16 * q) 15
    (fun h i => reset_U m c q h _ i)
    (fun n h acc i hlo hhi => next_U m c n h (by omega) acc i) j hj h i

/-- The sixteen points' addends of a box tile sum to the row's soft intersection over all the pixels … -/
theorem tile_sum_I (c : Dev nD) (q : ℕ) (r : Fin 256) :
    ∑ s ∈ Finset.range 16, addI m c (16 * q + s) (ix2 r (0 : Fin 1)) = inter (arrP m c) (arrT m c) (arrG m c) (row q r) := by
  rw [← Cert.Pious.inter_tiles]
  refine Finset.sum_congr rfl fun s hs => ?_
  have hs' : s < 16 := Finset.mem_range.mp hs
  have e1 : (16 * q + s) / 16 = q := by omega
  have e2 : ∀ l : Fin 1024, pix (16 * q + s) l = pix s l := fun l =>
    Fin.ext (by show 1024 * ((16 * q + s) % 16) + l.val = 1024 * (s % 16) + l.val; omega)
  unfold addI
  simp only [e1, e2]

/-- … and to the row's soft union: the memberships are reals, so the differences sum to the difference of the sums. -/
theorem tile_sum_U (c : Dev nD) (q : ℕ) (r : Fin 256) :
    ∑ s ∈ Finset.range 16, addU m c (16 * q + s) (ix2 r (0 : Fin 1))
      = total (arrP m c) (arrT m c) (arrG m c) (row q r) - inter (arrP m c) (arrT m c) (arrG m c) (row q r) := by
  rw [← Cert.Pious.union_tiles]
  refine Finset.sum_congr rfl fun s hs => ?_
  have hs' : s < 16 := Finset.mem_range.mp hs
  have e1 : (16 * q + s) / 16 = q := by omega
  have e2 : ∀ l : Fin 1024, pix (16 * q + s) l = pix s l := fun l =>
    Fin.ext (by show 1024 * ((16 * q + s) % 16) + l.val = 1024 * (s % 16) + l.val; omega)
  unfold addU
  simp only [e1, e2]

/-- After a box tile's last point the first accumulator holds the rows' soft intersections … -/
theorem accI_last (c : Dev nD) (t : Fin cfg0.N) (ht : t.val % 16 = 15) (r : Fin 256) :
    (outsAt0 m c t.val t.isLt).2.1 (ix2 r (0 : Fin 1)) = inter (arrP m c) (arrT m c) (arrG m c) (row (t.val / 16) r) := by
  have hN : t.val < 128 := lt_of_lt_of_eq t.isLt (show cfg0.N = 128 from N_0)
  rw [soutsAt0_0_eq m c t, accI_fold m c (t.val / 16) (t.val % 16) (by omega) _ _, ht, zero_add]
  exact tile_sum_I m c (t.val / 16) r

/-- … and the second the rows' soft unions. -/
theorem accU_last (c : Dev nD) (t : Fin cfg0.N) (ht : t.val % 16 = 15) (r : Fin 256) :
    (outsAt0 m c t.val t.isLt).2.2 (ix2 r (0 : Fin 1))
      = total (arrP m c) (arrT m c) (arrG m c) (row (t.val / 16) r) - inter (arrP m c) (arrT m c) (arrG m c) (row (t.val / 16) r) := by
  have hN : t.val < 128 := lt_of_lt_of_eq t.isLt (show cfg0.N = 128 from N_0)
  rw [soutsAt0_1_eq m c t, accU_fold m c (t.val / 16) (t.val % 16) (by omega) _ _, ht, zero_add]
  exact tile_sum_U m c (t.val / 16) r

/-! ## The block stored at a box tile's last point -/

/-- What the last point stores is the quotient formed from the two accumulators as that point leaves them. -/
theorem out_last (c : Dev nD) (t : Fin cfg0.N) (ht : t.val % 16 = 15) :
    (outsAt0 m c t.val t.isLt).1 = k0_pay5 ((outsAt0 m c t.val t.isLt).2.1) ((outsAt0 m c t.val t.isLt).2.2) := by
  rw [outsAt0_C m c t (by omega) ht]
  dsimp only
  rw [last_out, last_I, last_U]

/-- So row `r` of the stored block is the result for box `256·(t / 16) + r`. -/
theorem out_last_apply (c : Dev nD) (t : Fin cfg0.N) (ht : t.val % 16 = 15) (r : Fin 256) :
    (outsAt0 m c t.val t.isLt).1 (ix1 r) = iou (arrP m c) (arrT m c) (arrG m c) (ix1 (row (t.val / 16) r)) := by
  rw [out_last m c t ht]
  refine (quot_apply _ _ r).trans ?_
  rw [accI_last m c t ht r, accU_last m c t ht r]
  rfl

end Cert.KernelIdeal.Fold

end
-- ==== Proof.Final.lean ====
/-
  The result array after the run.

  Only a box tile's last point writes its output block back, and block `t / 16` is rows `256·(t / 16) …` of
  the 2048-row result: the eight written blocks tile the array, each holding the specification's values at
  its rows, so the array ends holding the specification.
-/
import proofs.«115497_j39109972198157_1_alg».proof.Proof.Fold

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Blocks Cert.KernelIdeal.Fold
open Cert.Pious (iou row)

variable (m : (ℓ : Loc nD τ sig) → Buf (Elt Ideal) ℓ) (ρ : Dev nD → PrngReg)

/-- The result array: the specification of the three argument arrays as launched. -/
abbrev result (c : Dev nD) : Buf (Elt Ideal) ((c : Thread nD τ).loc main_v1) := iou (arrP m c) (arrT m c) (arrG m c)

/-- The block stored at a box tile's last point, at any index of the block. -/
theorem out_last_idx (c : Dev nD) (t : Fin cfg0.N) (ht : t.val % 16 = 15) (y : S256.Idx) :
    (outsAt0 m c t.val t.isLt).1 y = result m c (ix1 (row (t.val / 16) (y 0))) := by
  obtain ⟨r, rfl⟩ : ∃ r : Fin 256, y = ix1 r := ⟨y 0, eq_ix1 y⟩
  exact out_last_apply m c t ht r

/-- What a writing point writes back is its block of the result. -/
theorem flushed_eq (c : Dev nD) (t : Fin cfg0.N) (hf : (cfg0.win 3).flush t = true) :
    (dats m 0 c).flushed 3 t = ((cfg0.win 3).blk t).view.read (Elt Ideal) (result m c) := by
  have ht : t.val % 16 = 15 := (flush0_3 t).mp hf
  obtain ⟨-, -, -, -, -, -, e3⟩ := idx_facts t
  have hN : t.val < 128 := lt_of_lt_of_eq t.isLt (show cfg0.N = 128 from N_0)
  -- index by index: the stored block at `y` is the result at the block's `y`-th row of the array
  have key : ∀ y : S256.Idx, (outsAt0 m c t.val t.isLt).1 y = result m c (((cfg0.win 3).blk t).view.emb y) := fun y =>
    (out_last_idx m c t ht y).trans (congrArg (result m c) (funext fun a => Fin.ext (by
      match a with
      | ⟨0, _⟩ => show 256 * (t.val / 16 % 8) + (y 0).val = win0_3.index t (0 : Fin 1) * 256 + 1 * (y 0).val; omega)))
  rw [Cert.KernelIdeal.Value.flushed3]
  generalize (outsAt0 m c t.val t.isLt).1 = v at key ⊢
  generalize result m c = G at key ⊢
  funext y
  exact key y

/-- Every row of the result is in the block of its box tile's last point. -/
theorem cover (c : Dev nD) (i : S2048.Idx) :
    ∃ t : Fin cfg0.N, (cfg0.win 3).flush t = true ∧ i ∈ ((cfg0.win 3).blk t).view.set := by
  have hi : (i 0).val < 2048 := (i 0).isLt
  have hN : cfg0.N = 128 := N_0
  have hb : 16 * ((i 0).val / 256) + 15 < cfg0.N := by rw [hN]; omega
  obtain ⟨-, -, -, -, -, -, e3⟩ := idx_facts ⟨16 * ((i 0).val / 256) + 15, hb⟩
  refine ⟨⟨16 * ((i 0).val / 256) + 15, hb⟩, (flush0_3 _).mpr (by show (16 * ((i 0).val / 256) + 15) % 16 = 15; omega), ?_⟩
  show i ∈ ((View.whole main_v1).slice (win0_3.rect ⟨16 * ((i 0).val / 256) + 15, hb⟩)).set
  rw [View.set_slice_whole, Rect.mem_set_unit]
  intro a
  match a with
  | ⟨0, _⟩ =>
    show win0_3.index ⟨16 * ((i 0).val / 256) + 15, hb⟩ (0 : Fin 1) * 256 ≤ (i 0).val
      ∧ (i 0).val < win0_3.index ⟨16 * ((i 0).val / 256) + 15, hb⟩ (0 : Fin 1) * 256 + 256
    have e3' : win0_3.index ⟨16 * ((i 0).val / 256) + 15, hb⟩ (0 : Fin 1) = (16 * ((i 0).val / 256) + 15) / 16 := e3
    omega

/-- So the result array ends holding the specification. -/
theorem final (c : Dev nD) : (dats m 0 c).arrAt 3 cfg0.N = result m c :=
  (dats m 0 c).arrAt_eq_of_cover 3 (result m c) (flushed_eq m c) (cover c)

/-- The run, read: the result array at the specification of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.Final

end
-- ==== Proof.lean ====
/-
  The certificate's five claims, assembled.

  Both programs compute, for each of 2048 pairs of rotated boxes (a predicted and a target box, five numbers
  each), a soft intersection over union over 16384 pixel centres: a pixel's soft membership in a box is the
  product of two logistic factors, one per box axis, of the pixel's distance from the centre along that axis;
  the intersection is the sum over the pixels of the two memberships' product, the union the sum of their sum
  minus the intersection, the result intersection / (union + ε) (Proof/Spec.lean).

  The reference forms the two 2048 × 16384 membership arrays whole and sums their rows (Proof/RefValue.lean:
  its operations read one at a time; its expanded 1 / (1 + e⁻ˣ) is the logistic by definition). The kernel
  walks 8 box tiles × 16 pixel tiles with two running accumulators per box tile: it sets them to zero at the
  tile's first pixel tile, adds each pixel tile's row sums (Proof/Body.lean, Proof/TileValue.lean,
  Proof/Blocks.lean), and at the last stores the quotient (Proof/Fold.lean, Proof/Final.lean). Two laws join
  the two (Proof/SumLaws.lean): a sum taken tile by tile is the sum over all pixels, in any commutative monoid;
  and the second accumulator's tile-wise differences sum to the difference of the whole sums because every
  membership, a product of logistic values, is a real number whatever the inputs are. So the equality of the
  results needs no finiteness of the inputs; the precondition is carried but never opened.

  The three frames are the generated frame runs (the reference's is its generated run with the result
  dropped); the idealization rewrote no operation, so its claim is `True`.
-/
import proofs.«115497_j39109972198157_1_alg».proof.Defs
import proofs.«115497_j39109972198157_1_alg».proof.Proof.Gen.Kernel
import proofs.«115497_j39109972198157_1_alg».proof.Proof.Gen.Kernel.Skeleton
import proofs.«115497_j39109972198157_1_alg».proof.Proof.Gen.Kernel.Launch
import proofs.«115497_j39109972198157_1_alg».proof.Proof.Gen.Kernel.Points
import proofs.«115497_j39109972198157_1_alg».proof.Proof.Gen.Kernel.Frame
import proofs.«115497_j39109972198157_1_alg».proof.Proof.Gen.KernelIdeal
import proofs.«115497_j39109972198157_1_alg».proof.Proof.Gen.KernelIdeal.Skeleton
import proofs.«115497_j39109972198157_1_alg».proof.Proof.Gen.KernelIdeal.Launch
import proofs.«115497_j39109972198157_1_alg».proof.Proof.Gen.KernelIdeal.Points
import proofs.«115497_j39109972198157_1_alg».proof.Proof.Gen.KernelIdeal.Frame
import proofs.«115497_j39109972198157_1_alg».proof.Proof.Gen.ReferenceIdeal
import proofs.«115497_j39109972198157_1_alg».proof.Proof.Gen.Pre_finite_inputs
import proofs.«115497_j39109972198157_1_alg».proof.Proof.Gen.KernelIdeal.Value
import proofs.«115497_j39109972198157_1_alg».proof.Proof.Gen.ReferenceIdeal.Run
import proofs.«115497_j39109972198157_1_alg».proof.Proof.Gen.ReferenceIdeal.Read
import proofs.«115497_j39109972198157_1_alg».proof.Proof.RefValue
import proofs.«115497_j39109972198157_1_alg».proof.Proof.Final
import Idealize.ShloMosaic.Adequacy
import Idealize.ShloMosaic.Init

noncomputable section

namespace Cert.Proof

open Idealize.ShloMosaic Idealize.SL.Sem

/-- The kernel as printed runs and leaves its arguments as they were: the generated frame run. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Over the extended reals the kernel's result array ends at the specification of its arguments, and the
    reference's result is the specification of arguments that agree with them. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v121_eq, Cert.ReferenceIdeal.RefValue.ref_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
